-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x200 : Shape := ⟨2, ![2048, 200]⟩
abbrev S100000x256 : Shape := ⟨2, ![100000, 256]⟩
abbrev S50000x256 : Shape := ⟨2, ![50000, 256]⟩
abbrev S5x256 : Shape := ⟨2, ![5, 256]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S5x256 : S_.BroadcastsInDim S5x256 (![] : Fin 0 → Fin S5x256.rank)
  reducesTo_S5x256_S_d0_1 : S5x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2048x200 : S_.BroadcastsInDim S2048x200 (![] : Fin 0 → Fin S2048x200.rank)
  reducesTo_S2048x200_S_d0_1 : S2048x200.ReducesTo [0, 1] S_

variable [Facts]

def fn_part4 {F : FTy → Type} [FloatOps F] (main_arg2 : IVec S2048x200 32) (main_v67 : IVec S_ 1) : IVec S_ 1 :=
  let main_c_26 : IVec S_ 32 := constantI S_ 32 5#32
  let main_v68 : IVec S2048x200 32 := broadcastInDim S2048x200 ![] bcast_S_S2048x200 main_c_26
  let main_v69 : IVec S2048x200 1 := cmpi .slt main_arg2 main_v68
  let main_c_27 : IVec S_ 1 := constantI S_ 1 1#1
  let main_v70 : IVec S_ 1 := (fun x v => Host.reduce IntOp.andi x v reducesTo_S2048x200_S_d0_1 h_S_) main_v69 main_c_27
  let main_v71 : IVec S_ 1 := andi main_v67 main_v70
  main_v71

def fn_part3 {F : FTy → Type} [FloatOps F] (main_arg2 : IVec S2048x200 32) (main_arg15 : FVec F S1x256 .f32) (main_arg16 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1x256 .f32 := Host.absf main_arg15
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S2048x200 32 := broadcastInDim S2048x200 ![] bcast_S_S2048x200 main_c_24
  let main_v65 : IVec S2048x200 1 := cmpi .sge main_arg2 main_v64
  let main_c_25 : IVec S_ 1 := constantI S_ 1 1#1
  let main_v66 : IVec S_ 1 := (fun x v => Host.reduce IntOp.andi x v reducesTo_S2048x200_S_d0_1 h_S_) main_v65 main_c_25
  let main_v67 : IVec S_ 1 := andi main_v63 main_v66
  fn_part4 (F := F) main_arg2 main_v67

def fn_part2 {F : FTy → Type} [FloatOps F] (main_arg2 : IVec S2048x200 32) (main_arg11 : FVec F S256x512 .f32) (main_arg12 : FVec F S256 .f32) (main_arg13 : FVec F S256x256 .f32) (main_arg14 : FVec F S256 .f32) (main_arg15 : FVec F S1x256 .f32) (main_arg16 : FVec F S1 .f32) (main_v33 : IVec S_ 1) : IVec S_ 1 :=
  let main_v34 : FVec F S256x512 .f32 := Host.absf main_arg11
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg2 main_arg15 main_arg16 main_v48 main_v49 main_v50

def fn_part1 {F : FTy → Type} [FloatOps F] (main_arg2 : IVec S2048x200 32) (main_arg8 : FVec F S256 .f32) (main_arg9 : FVec F S256x256 .f32) (main_arg10 : FVec F S256 .f32) (main_arg11 : FVec F S256x512 .f32) (main_arg12 : FVec F S256 .f32) (main_arg13 : FVec F S256x256 .f32) (main_arg14 : FVec F S256 .f32) (main_arg15 : FVec F S1x256 .f32) (main_arg16 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg11 main_arg12 main_arg13 main_arg14 main_arg15 main_arg16 main_v33

def fn {F : FTy → Type} [FloatOps F] (main_arg0 : IVec S2048 32) (main_arg1 : IVec S2048x200 32) (main_arg2 : IVec S2048x200 32) (main_arg3 : IVec S2048x200 32) (main_arg4 : FVec F S100000x256 .f32) (main_arg5 : FVec F S50000x256 .f32) (main_arg6 : FVec F S5x256 .f32) (main_arg7 : FVec F S256x512 .f32) (main_arg8 : FVec F S256 .f32) (main_arg9 : FVec F S256x256 .f32) (main_arg10 : FVec F S256 .f32) (main_arg11 : FVec F S256x512 .f32) (main_arg12 : FVec F S256 .f32) (main_arg13 : FVec F S256x256 .f32) (main_arg14 : FVec F S256 .f32) (main_arg15 : FVec F S1x256 .f32) (main_arg16 : FVec F S1 .f32) : IVec S_ 1 :=
  let main_v0 : FVec F S100000x256 .f32 := Host.absf main_arg4
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg5
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S5x256 .f32 := Host.absf main_arg6
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  let main_v14 : FVec F S256x512 .f32 := Host.absf main_arg7
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg2 main_arg8 main_arg9 main_arg10 main_arg11 main_arg12 main_arg13 main_arg14 main_arg15 main_arg16 main_v13 main_v16
-- ==== Kernel.lean ====
abbrev S2048 : Shape := ⟨1, ![2048]⟩
abbrev S2048x200 : Shape := ⟨2, ![2048, 200]⟩
abbrev S100000x256 : Shape := ⟨2, ![100000, 256]⟩
abbrev S50000x256 : Shape := ⟨2, ![50000, 256]⟩
abbrev S5x256 : Shape := ⟨2, ![5, 256]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩
abbrev S2048x200x1 : Shape := ⟨3, ![2048, 200, 1]⟩
abbrev S2048x200x256 : Shape := ⟨3, ![2048, 200, 256]⟩
abbrev S2048x1 : Shape := ⟨2, ![2048, 1]⟩
abbrev S2048x256 : Shape := ⟨2, ![2048, 256]⟩
abbrev S8x256 : Shape := ⟨2, ![8, 256]⟩
abbrev S1x1 : Shape := ⟨2, ![1, 1]⟩
abbrev S409600x256 : Shape := ⟨2, ![409600, 256]⟩
abbrev S6400x256 : Shape := ⟨2, ![6400, 256]⟩
abbrev S32x200 : Shape := ⟨2, ![32, 200]⟩
abbrev S32x256 : Shape := ⟨2, ![32, 256]⟩
abbrev S32x200x8 : Shape := ⟨3, ![32, 200, 8]⟩
abbrev S32x200x1 : Shape := ⟨3, ![32, 200, 1]⟩
abbrev S6400x8 : Shape := ⟨2, ![6400, 8]⟩
abbrev S32x1x256 : Shape := ⟨3, ![32, 1, 256]⟩
abbrev S32x200x256 : Shape := ⟨3, ![32, 200, 256]⟩
abbrev S6400 : Shape := ⟨1, ![6400]⟩
abbrev S6400x1 : Shape := ⟨2, ![6400, 1]⟩
abbrev S32 : Shape := ⟨1, ![32]⟩
abbrev S32x1 : Shape := ⟨2, ![32, 1]⟩

abbrev nBuf : Space → Nat
  | .hbm => 66
  | .vmem => 20
  | .smem => 0
  | _ => 0

abbrev bufTy : (tb : Table) → Fin (tcTables nBuf tb) → BufTy
  | .hbm, ⟨0, _⟩ => ⟨S2048, .i32⟩
  | .hbm, ⟨1, _⟩ => ⟨S2048x200, .i32⟩
  | .hbm, ⟨2, _⟩ => ⟨S2048x200, .i32⟩
  | .hbm, ⟨3, _⟩ => ⟨S2048x200, .i32⟩
  | .hbm, ⟨4, _⟩ => ⟨S100000x256, .f32⟩
  | .hbm, ⟨5, _⟩ => ⟨S50000x256, .f32⟩
  | .hbm, ⟨6, _⟩ => ⟨S5x256, .f32⟩
  | .hbm, ⟨7, _⟩ => ⟨S256x512, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x256, .f32⟩
  | .hbm, ⟨16, _⟩ => ⟨S1, .f32⟩
  | .hbm, ⟨17, _⟩ => ⟨S_, .i32⟩
  | .hbm, ⟨18, _⟩ => ⟨S2048x200, .i32⟩
  | .hbm, ⟨19, _⟩ => ⟨S2048x200, .i1⟩
  | .hbm, ⟨20, _⟩ => ⟨S_, .i32⟩
  | .hbm, ⟨21, _⟩ => ⟨S2048x200, .i32⟩
  | .hbm, ⟨22, _⟩ => ⟨S2048x200, .i32⟩
  | .hbm, ⟨23, _⟩ => ⟨S2048x200, .i32⟩
  | .hbm, ⟨24, _⟩ => ⟨S2048x200x1, .i32⟩
  | .hbm, ⟨25, _⟩ => ⟨S2048x200x256, .f32⟩
  | .hbm, ⟨26, _⟩ => ⟨S2048x200x256, .bf16⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x256, .f32⟩
  | .hbm, ⟨36, _⟩ => ⟨S2048x256, .bf16⟩
  | .hbm, ⟨37, _⟩ => ⟨S256x256, .f32⟩
  | .hbm, ⟨38, _⟩ => ⟨S256x256, .f32⟩
  | .hbm, ⟨39, _⟩ => ⟨S256x256, .bf16⟩
  | .hbm, ⟨40, _⟩ => ⟨S256x256, .f32⟩
  | .hbm, ⟨41, _⟩ => ⟨S256x256, .f32⟩
  | .hbm, ⟨42, _⟩ => ⟨S256x256, .bf16⟩
  | .hbm, ⟨43, _⟩ => ⟨S256x256, .f32⟩
  | .hbm, ⟨44, _⟩ => ⟨S256x256, .bf16⟩
  | .hbm, ⟨45, _⟩ => ⟨S256x256, .f32⟩
  | .hbm, ⟨46, _⟩ => ⟨S256x256, .f32⟩
  | .hbm, ⟨47, _⟩ => ⟨S256x256, .bf16⟩
  | .hbm, ⟨48, _⟩ => ⟨S256x256, .f32⟩
  | .hbm, ⟨49, _⟩ => ⟨S256x256, .f32⟩
  | .hbm, ⟨50, _⟩ => ⟨S256x256, .bf16⟩
  | .hbm, ⟨51, _⟩ => ⟨S256x256, .f32⟩
  | .hbm, ⟨52, _⟩ => ⟨S256x256, .bf16⟩
  | .hbm, ⟨53, _⟩ => ⟨S5x256, .bf16⟩
  | .hbm, ⟨54, _⟩ => ⟨S5x256, .f32⟩
  | .hbm, ⟨55, _⟩ => ⟨S5x256, .bf16⟩
  | .hbm, ⟨56, _⟩ => ⟨S_, .i32⟩
  | .hbm, ⟨57, _⟩ => ⟨S_, .bf16⟩
  | .hbm, ⟨58, _⟩ => ⟨S8x256, .bf16⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x1, .f32⟩
  | .hbm, ⟨64, _⟩ => ⟨S409600x256, .bf16⟩
  | .hbm, ⟨65, _⟩ => ⟨S2048x256, .f32⟩
  | .local _ .vmem, ⟨0, _⟩ => ⟨S6400x256, .bf16⟩
  | .local _ .vmem, ⟨1, _⟩ => ⟨S6400x256, .bf16⟩
  | .local _ .vmem, ⟨2, _⟩ => ⟨S32x200, .i32⟩
  | .local _ .vmem, ⟨3, _⟩ => ⟨S32x200, .i32⟩
  | .local _ .vmem, ⟨4, _⟩ => ⟨S32x256, .bf16⟩
  | .local _ .vmem, ⟨5, _⟩ => ⟨S32x256, .bf16⟩
  | .local _ .vmem, ⟨6, _⟩ => ⟨S8x256, .bf16⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S1x256, .f32⟩
  | .local _ .vmem, ⟨17, _⟩ => ⟨S1x1, .f32⟩
  | .local _ .vmem, ⟨18, _⟩ => ⟨S32x256, .f32⟩
  | .local _ .vmem, ⟨19, _⟩ => ⟨S32x256, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_3 : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  bitsLt_bf16_f32 : FTy.bits .bf16 < FTy.bits .f32
  bcast_S_S2048 : S_.BroadcastsInDim S2048 (![] : Fin 0 → Fin S2048.rank)
  bcast_S2048_S2048x1_0 : S2048.BroadcastsInDim S2048x1 (![0] : Fin 1 → Fin S2048x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  pads_S5x256_S8x256_030_000 : S5x256.Pads (![0, 0] : Fin 2 → Nat) ![3, 0] ![0, 0] S8x256
  h_S_ : 0 < S_.numel
  shapeCasts_S256_S1x256 : S256.ShapeCasts S1x256
  shapeCasts_S1_S1x1 : S1.ShapeCasts S1x1
  shapeCasts_S2048x200x256_S409600x256 : S2048x200x256.ShapeCasts S409600x256
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S32x200_S32x200_0_0 : ∀ a, (![0, 0] : Fin 2 → Nat) a + S32x200.size a ≤ S32x200.size a
  h_S32x200 : 0 < S32x200.numel
  iota_S32x200x8_d2_w32 : S32x200x8.Iotas .tc 32 [2]
  shapeCasts_S32x200_S32x200x1 : S32x200.ShapeCasts S32x200x1
  broadcasts_S32x200x1_S32x200x8 : S32x200x1.Broadcasts S32x200x8
  natLt_1_32 : 1 < 32
  shapeCasts_S32x200x8_S6400x8 : S32x200x8.ShapeCasts S6400x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S32x256_S32x1x256 : S32x256.ShapeCasts S32x1x256
  shapeCasts_S32x1x256_S32x1x256 : S32x1x256.ShapeCasts S32x1x256
  broadcasts_S32x1x256_S32x200x256 : S32x1x256.Broadcasts S32x200x256
  shapeCasts_S32x200x256_S6400x256 : S32x200x256.ShapeCasts S6400x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S6400x256_S6400 : S6400x256.Reduces [1] S6400
  shapeCasts_S6400_S6400x1 : S6400.ShapeCasts S6400x1
  broadcasts_S1x1_S6400x1 : S1x1.Broadcasts S6400x1
  shapeCasts_S6400x1_S32x200 : S6400x1.ShapeCasts S32x200
  reduces_S32x200_S32 : S32x200.Reduces [1] S32
  shapeCasts_S32_S32x1 : S32.ShapeCasts S32x1
  broadcasts_S32x1_S32x200 : S32x1.Broadcasts S32x200
  shapeCasts_S32x200_S6400x1 : S32x200.ShapeCasts S6400x1
  broadcasts_S6400x1_S6400x256 : S6400x1.Broadcasts S6400x256
  shapeCasts_S6400x256_S32x200x256 : S6400x256.ShapeCasts S32x200x256
  reduces_S32x200x256_S32x256 : S32x200x256.Reduces [1] S32x256
  gather_S50000x256_S2048x200x1_S2048x200x256_2_0_n_n_0_2_1256_wf : GatherDims.WF S50000x256 S2048x200x1 S2048x200x256 [2] [0] [] [0] [] 2 ![1, 256]
  gather_S100000x256_S2048x1_S2048x256_1_0_n_n_0_1_1256_wf : GatherDims.WF S100000x256 S2048x1 S2048x256 [1] [0] [] [0] [] 1 ![1, 256]
  dot_S5x256_S256x256_S5x256_1_0_0_1_n_n_wf : DotDims.WF S5x256 S256x256 S5x256 [1] [0] [0] [1] [] []
  dot_S6400x8_S8x256_S6400x256_1_0_0_1_n_n_wf : DotDims.WF S6400x8 S8x256 S6400x256 [1] [0] [0] [1] [] []
  dot_S6400x256_S256x256_S6400x256_1_0_0_1_n_n_wf : DotDims.WF S6400x256 S256x256 S6400x256 [1] [0] [0] [1] [] []
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S409600x256.size a
  hwx0_0 : ∀ i : grid0.Coords, EltTy.bits .bf16 = 32 ∨ (Rect.block (s := S409600x256) S6400x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200.size a ≤ S2048x200.size a
  hwx0_1 : ∀ i : grid0.Coords, EltTy.bits .i32 = 32 ∨ (Rect.block (s := S2048x200) S32x200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S2048x256.size a
  hwx0_2 : ∀ i : grid0.Coords, EltTy.bits .bf16 = 32 ∨ (Rect.block (s := S2048x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .bf16 = 32 ∨ (Rect.block (s := S8x256) S8x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x256.size a ≤ S2048x256.size a
  hwx0_15 : ∀ i : grid0.Coords, EltTy.bits .f32 = 32 ∨ (Rect.block (s := S2048x256) S32x256.size (cc0_transform_15 i) (hinb0_15 i)).WholeWords (EltTy.packing .f32)

variable [Facts₀]

def gather_S50000x256_S2048x200x1_S2048x200x256_2_0_n_n_0_2_1256 : GatherDims S50000x256 S2048x200x1 S2048x200x256 where
  offsetDims := [2]
  collapsedSliceDims := [0]
  operandBatchingDims := []
  startIndicesBatchingDims := []
  startIndexMap := [0]
  indexVectorDim := 2
  sliceSizes := ![1, 256]
  wf := gather_S50000x256_S2048x200x1_S2048x200x256_2_0_n_n_0_2_1256_wf
def gather_S100000x256_S2048x1_S2048x256_1_0_n_n_0_1_1256 : GatherDims S100000x256 S2048x1 S2048x256 where
  offsetDims := [1]
  collapsedSliceDims := [0]
  operandBatchingDims := []
  startIndicesBatchingDims := []
  startIndexMap := [0]
  indexVectorDim := 1
  sliceSizes := ![1, 256]
  wf := gather_S100000x256_S2048x1_S2048x256_1_0_n_n_0_1_1256_wf
def dot_S5x256_S256x256_S5x256_1_0_0_1_n_n : DotDims S5x256 S256x256 S5x256 where
  lhsContracting := [1]
  rhsContracting := [0]
  lhsNonContracting := [0]
  rhsNonContracting := [1]
  lhsBatch := []
  rhsBatch := []
  wf := dot_S5x256_S256x256_S5x256_1_0_0_1_n_n_wf
def dot_S6400x8_S8x256_S6400x256_1_0_0_1_n_n : DotDims S6400x8 S8x256 S6400x256 where
  lhsContracting := [1]
  rhsContracting := [0]
  lhsNonContracting := [0]
  rhsNonContracting := [1]
  lhsBatch := []
  rhsBatch := []
  wf := dot_S6400x8_S8x256_S6400x256_1_0_0_1_n_n_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_v41) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v40) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42) S32x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2048 : Shape := ⟨1, ![2048]⟩
abbrev S2048x200 : Shape := ⟨2, ![2048, 200]⟩
abbrev S100000x256 : Shape := ⟨2, ![100000, 256]⟩
abbrev S50000x256 : Shape := ⟨2, ![50000, 256]⟩
abbrev S5x256 : Shape := ⟨2, ![5, 256]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩
abbrev S2048x200x1 : Shape := ⟨3, ![2048, 200, 1]⟩
abbrev S2048x200x256 : Shape := ⟨3, ![2048, 200, 256]⟩
abbrev S2048x1 : Shape := ⟨2, ![2048, 1]⟩
abbrev S2048x256 : Shape := ⟨2, ![2048, 256]⟩
abbrev S2048x200x512 : Shape := ⟨3, ![2048, 200, 512]⟩
abbrev S1x1x256 : Shape := ⟨3, ![1, 1, 256]⟩
abbrev S2048x1x256 : Shape := ⟨3, ![2048, 1, 256]⟩
abbrev S1x1x1 : Shape := ⟨3, ![1, 1, 1]⟩
abbrev S2048x1x1 : Shape := ⟨3, ![2048, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x200, .i32⟩
  | .hbm, ⟨2, _⟩ => ⟨S2048x200, .i32⟩
  | .hbm, ⟨3, _⟩ => ⟨S2048x200, .i32⟩
  | .hbm, ⟨4, _⟩ => ⟨S100000x256, .f32⟩
  | .hbm, ⟨5, _⟩ => ⟨S50000x256, .f32⟩
  | .hbm, ⟨6, _⟩ => ⟨S5x256, .f32⟩
  | .hbm, ⟨7, _⟩ => ⟨S256x512, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x256, .f32⟩
  | .hbm, ⟨16, _⟩ => ⟨S1, .f32⟩
  | .hbm, ⟨17, _⟩ => ⟨S_, .i32⟩
  | .hbm, ⟨18, _⟩ => ⟨S2048x200, .i32⟩
  | .hbm, ⟨19, _⟩ => ⟨S2048x200, .i1⟩
  | .hbm, ⟨20, _⟩ => ⟨S_, .i32⟩
  | .hbm, ⟨21, _⟩ => ⟨S2048x200, .i32⟩
  | .hbm, ⟨22, _⟩ => ⟨S2048x200, .i32⟩
  | .hbm, ⟨23, _⟩ => ⟨S2048x200, .i32⟩
  | .hbm, ⟨24, _⟩ => ⟨S2048x200x1, .i32⟩
  | .hbm, ⟨25, _⟩ => ⟨S2048x200x256, .f32⟩
  | .hbm, ⟨26, _⟩ => ⟨S_, .i32⟩
  | .hbm, ⟨27, _⟩ => ⟨S2048x200, .i32⟩
  | .hbm, ⟨28, _⟩ => ⟨S2048x200, .i1⟩
  | .hbm, ⟨29, _⟩ => ⟨S_, .i32⟩
  | .hbm, ⟨30, _⟩ => ⟨S2048x200, .i32⟩
  | .hbm, ⟨31, _⟩ => ⟨S2048x200, .i32⟩
  | .hbm, ⟨32, _⟩ => ⟨S2048x200, .i32⟩
  | .hbm, ⟨33, _⟩ => ⟨S2048x200x1, .i32⟩
  | .hbm, ⟨34, _⟩ => ⟨S2048x200x256, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S2048x256, .f32⟩
  | .hbm, ⟨44, _⟩ => ⟨S2048x200x512, .f32⟩
  | .hbm, ⟨45, _⟩ => ⟨S2048x200x256, .f32⟩
  | .hbm, ⟨46, _⟩ => ⟨S1x1x256, .f32⟩
  | .hbm, ⟨47, _⟩ => ⟨S2048x200x256, .f32⟩
  | .hbm, ⟨48, _⟩ => ⟨S2048x200x256, .f32⟩
  | .hbm, ⟨49, _⟩ => ⟨S_, .f32⟩
  | .hbm, ⟨50, _⟩ => ⟨S2048x200x256, .f32⟩
  | .hbm, ⟨51, _⟩ => ⟨S2048x200x256, .f32⟩
  | .hbm, ⟨52, _⟩ => ⟨S2048x200x256, .f32⟩
  | .hbm, ⟨53, _⟩ => ⟨S1x1x256, .f32⟩
  | .hbm, ⟨54, _⟩ => ⟨S2048x200x256, .f32⟩
  | .hbm, ⟨55, _⟩ => ⟨S2048x200x256, .f32⟩
  | .hbm, ⟨56, _⟩ => ⟨S_, .f32⟩
  | .hbm, ⟨57, _⟩ => ⟨S2048x200x256, .f32⟩
  | .hbm, ⟨58, _⟩ => ⟨S2048x200x256, .f32⟩
  | .hbm, ⟨59, _⟩ => ⟨S2048x1x256, .f32⟩
  | .hbm, ⟨60, _⟩ => ⟨S2048x200x256, .f32⟩
  | .hbm, ⟨61, _⟩ => ⟨S2048x200x512, .f32⟩
  | .hbm, ⟨62, _⟩ => ⟨S2048x200x256, .f32⟩
  | .hbm, ⟨63, _⟩ => ⟨S1x1x256, .f32⟩
  | .hbm, ⟨64, _⟩ => ⟨S2048x200x256, .f32⟩
  | .hbm, ⟨65, _⟩ => ⟨S2048x200x256, .f32⟩
  | .hbm, ⟨66, _⟩ => ⟨S_, .f32⟩
  | .hbm, ⟨67, _⟩ => ⟨S2048x200x256, .f32⟩
  | .hbm, ⟨68, _⟩ => ⟨S2048x200x256, .f32⟩
  | .hbm, ⟨69, _⟩ => ⟨S2048x200x256, .f32⟩
  | .hbm, ⟨70, _⟩ => ⟨S1x1x256, .f32⟩
  | .hbm, ⟨71, _⟩ => ⟨S2048x200x256, .f32⟩
  | .hbm, ⟨72, _⟩ => ⟨S2048x200x256, .f32⟩
  | .hbm, ⟨73, _⟩ => ⟨S_, .f32⟩
  | .hbm, ⟨74, _⟩ => ⟨S2048x200x256, .f32⟩
  | .hbm, ⟨75, _⟩ => ⟨S2048x200x256, .f32⟩
  | .hbm, ⟨76, _⟩ => ⟨S2048x200x1, .f32⟩
  | .hbm, ⟨77, _⟩ => ⟨S1x1x1, .f32⟩
  | .hbm, ⟨78, _⟩ => ⟨S2048x200x1, .f32⟩
  | .hbm, ⟨79, _⟩ => ⟨S2048x200x1, .f32⟩
  | .hbm, ⟨80, _⟩ => ⟨S_, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x1x1, .f32⟩
  | .hbm, ⟨86, _⟩ => ⟨S2048x200x1, .f32⟩
  | .hbm, ⟨87, _⟩ => ⟨S2048x200x1, .f32⟩
  | .hbm, ⟨88, _⟩ => ⟨S2048x200x1, .f32⟩
  | .hbm, ⟨89, _⟩ => ⟨S_, .f32⟩
  | .hbm, ⟨90, _⟩ => ⟨S2048x1, .f32⟩
  | .hbm, ⟨91, _⟩ => ⟨S2048x1x1, .f32⟩
  | .hbm, ⟨92, _⟩ => ⟨S2048x200x1, .f32⟩
  | .hbm, ⟨93, _⟩ => ⟨S2048x200x1, .f32⟩
  | .hbm, ⟨94, _⟩ => ⟨S2048x200x256, .f32⟩
  | .hbm, ⟨95, _⟩ => ⟨S2048x200x256, .f32⟩
  | .hbm, ⟨96, _⟩ => ⟨S_, .f32⟩
  | .hbm, ⟨97, _⟩ => ⟨S2048x256, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call0_cst : Ref sig .tc := ⟨.hbm, 49, rfl⟩
abbrev main_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_cst : Ref sig .tc := ⟨.hbm, 56, rfl⟩
abbrev main_call1_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_cst : Ref sig .tc := ⟨.hbm, 66, rfl⟩
abbrev main_call2_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call3_cst : Ref sig .tc := ⟨.hbm, 73, rfl⟩
abbrev main_call3_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_6 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_7 : Ref sig .tc := ⟨.hbm, 96, rfl⟩
abbrev main_v62 : Ref sig .tc := ⟨.hbm, 97, rfl⟩

abbrev nD : Nat := 1
abbrev τ : Topo := Topo.v7x

variable {F : FTy → Type} [FloatOps F]

class Facts₀ : Prop where
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x200x256_S2048x200x256_S2048x200x512_d2 : Shape.Concatenates [S2048x200x256, S2048x200x256] S2048x200x512 2
  bcast_S256_S1x1x256_2 : S256.BroadcastsInDim S1x1x256 (![2] : Fin 1 → Fin S1x1x256.rank)
  bcast_S1x1x256_S2048x200x256_0_1_2 : S1x1x256.BroadcastsInDim S2048x200x256 (![0, 1, 2] : Fin 3 → Fin S2048x200x256.rank)
  bcast_S_S2048x200x256 : S_.BroadcastsInDim S2048x200x256 (![] : Fin 0 → Fin S2048x200x256.rank)
  bcast_S2048x256_S2048x1x256_0_2 : S2048x256.BroadcastsInDim S2048x1x256 (![0, 2] : Fin 2 → Fin S2048x1x256.rank)
  bcast_S2048x1x256_S2048x200x256_0_1_2 : S2048x1x256.BroadcastsInDim S2048x200x256 (![0, 1, 2] : Fin 3 → Fin S2048x200x256.rank)
  bcast_S1_S1x1x1_2 : S1.BroadcastsInDim S1x1x1 (![2] : Fin 1 → Fin S1x1x1.rank)
  bcast_S1x1x1_S2048x200x1_0_1_2 : S1x1x1.BroadcastsInDim S2048x200x1 (![0, 1, 2] : Fin 3 → Fin S2048x200x1.rank)
  reducesTo_S2048x200x1_S2048x1_d1 : S2048x200x1.ReducesTo [1] S2048x1
  h_S_ : 0 < S_.numel
  bcast_S_S2048x1 : S_.BroadcastsInDim S2048x1 (![] : Fin 0 → Fin S2048x1.rank)
  bcast_S2048x1_S2048x1x1_0_2 : S2048x1.BroadcastsInDim S2048x1x1 (![0, 2] : Fin 2 → Fin S2048x1x1.rank)
  bcast_S2048x1x1_S2048x200x1_0_1_2 : S2048x1x1.BroadcastsInDim S2048x200x1 (![0, 1, 2] : Fin 3 → Fin S2048x200x1.rank)
  bcast_S2048x200x1_S2048x200x256_0_1_2 : S2048x200x1.BroadcastsInDim S2048x200x256 (![0, 1, 2] : Fin 3 → Fin S2048x200x256.rank)
  reducesTo_S2048x200x256_S2048x256_d1 : S2048x200x256.ReducesTo [1] S2048x256
  gather_S50000x256_S2048x200x1_S2048x200x256_2_0_n_n_0_2_1256_wf : GatherDims.WF S50000x256 S2048x200x1 S2048x200x256 [2] [0] [] [0] [] 2 ![1, 256]
  gather_S5x256_S2048x200x1_S2048x200x256_2_0_n_n_0_2_1256_wf : GatherDims.WF S5x256 S2048x200x1 S2048x200x256 [2] [0] [] [0] [] 2 ![1, 256]
  gather_S100000x256_S2048x1_S2048x256_1_0_n_n_0_1_1256_wf : GatherDims.WF S100000x256 S2048x1 S2048x256 [1] [0] [] [0] [] 1 ![1, 256]
  dot_S2048x200x512_S256x512_S2048x200x256_2_1_01_0_n_n_wf : DotDims.WF S2048x200x512 S256x512 S2048x200x256 [2] [1] [0, 1] [0] [] []
  dot_S2048x200x256_S256x256_S2048x200x256_2_1_01_0_n_n_wf : DotDims.WF S2048x200x256 S256x256 S2048x200x256 [2] [1] [0, 1] [0] [] []
  dot_S2048x200x256_S1x256_S2048x200x1_2_1_01_0_n_n_wf : DotDims.WF S2048x200x256 S1x256 S2048x200x1 [2] [1] [0, 1] [0] [] []

variable [Facts₀]

def gather_S50000x256_S2048x200x1_S2048x200x256_2_0_n_n_0_2_1256 : GatherDims S50000x256 S2048x200x1 S2048x200x256 where
  offsetDims := [2]
  collapsedSliceDims := [0]
  operandBatchingDims := []
  startIndicesBatchingDims := []
  startIndexMap := [0]
  indexVectorDim := 2
  sliceSizes := ![1, 256]
  wf := gather_S50000x256_S2048x200x1_S2048x200x256_2_0_n_n_0_2_1256_wf
def gather_S5x256_S2048x200x1_S2048x200x256_2_0_n_n_0_2_1256 : GatherDims S5x256 S2048x200x1 S2048x200x256 where
  offsetDims := [2]
  collapsedSliceDims := [0]
  operandBatchingDims := []
  startIndicesBatchingDims := []
  startIndexMap := [0]
  indexVectorDim := 2
  sliceSizes := ![1, 256]
  wf := gather_S5x256_S2048x200x1_S2048x200x256_2_0_n_n_0_2_1256_wf
def gather_S100000x256_S2048x1_S2048x256_1_0_n_n_0_1_1256 : GatherDims S100000x256 S2048x1 S2048x256 where
  offsetDims := [1]
  collapsedSliceDims := [0]
  operandBatchingDims := []
  startIndicesBatchingDims := []
  startIndexMap := [0]
  indexVectorDim := 1
  sliceSizes := ![1, 256]
  wf := gather_S100000x256_S2048x1_S2048x256_1_0_n_n_0_1_1256_wf
def dot_S2048x200x512_S256x512_S2048x200x256_2_1_01_0_n_n : DotDims S2048x200x512 S256x512 S2048x200x256 where
  lhsContracting := [2]
  rhsContracting := [1]
  lhsNonContracting := [0, 1]
  rhsNonContracting := [0]
  lhsBatch := []
  rhsBatch := []
  wf := dot_S2048x200x512_S256x512_S2048x200x256_2_1_01_0_n_n_wf
def dot_S2048x200x256_S256x256_S2048x200x256_2_1_01_0_n_n : DotDims S2048x200x256 S256x256 S2048x200x256 where
  lhsContracting := [2]
  rhsContracting := [1]
  lhsNonContracting := [0, 1]
  rhsNonContracting := [0]
  lhsBatch := []
  rhsBatch := []
  wf := dot_S2048x200x256_S256x256_S2048x200x256_2_1_01_0_n_n_wf
def dot_S2048x200x256_S1x256_S2048x200x1_2_1_01_0_n_n : DotDims S2048x200x256 S1x256 S2048x200x1 where
  lhsContracting := [2]
  rhsContracting := [1]
  lhsNonContracting := [0, 1]
  rhsNonContracting := [0]
  lhsBatch := []
  rhsBatch := []
  wf := dot_S2048x200x256_S1x256_S2048x200x1_2_1_01_0_n_n_wf

class Facts : Prop extends Facts₀ where

variable [Facts]
-- ==== Proof.Spec.lean ====
/-
  The aggregation both programs compute, written once, index by index, on the extended reals.

  For a batch row `b` and a history position `l` the record is the attribute row `E b l` (256 numbers)
  and the rating row `R (Hr b l)` (the rating table has five rows; `Hr b l` says which). Two affine layers with
  a rectifier give `o b l`; a second pair, fed `o b l` beside the user row `U b`, gives a score
  `score b l`; the scores of one batch row are normalised by a softmax over the 200 positions, and
  the result is the softmax-weighted sum of the `o b l`.

  The first layer's weight matrix has 512 columns: the first 256 meet the attribute row, the last
  256 the rating row (`lo256`, `hi256`); the third layer's likewise meet `o` and the user row. Written
  with the two halves apart, as here, a layer over a concatenated input is the sum of two sums
  (`sum_cat`), and a sum against an indicator row picks one term (`sum_indicator`): these are the only two
  laws that separate the two programs, and neither needs a finite operand.
-/
import Idealize.ShloMosaic.PureOps.Ideal
import Idealize.ShloMosaic.Lib.ValueIdx

noncomputable section

open scoped BigOperators

namespace Cert.Agg

open Idealize.ShloMosaic Idealize.ShloMosaic.ValueIdx

/-! ## Rows and columns by number -/

/-- Position `l` of local batch row `b` in a block of 32 batch rows laid out as 6400 history rows. -/
def row (b : Fin 32) (l : Fin 200) : Fin 6400 := ⟨200 * b.val + l.val, by omega⟩
/-- Local batch row `b` of block `t` among the 2048 batch rows. -/
def brow (t : Fin 64) (b : Fin 32) : Fin 2048 := ⟨32 * t.val + b.val, by omega⟩
/-- History row `(b, l)` of block `t` among the 409600 history rows. -/
def frow (t : Fin 64) (b : Fin 32) (l : Fin 200) : Fin 409600 := ⟨6400 * t.val + (200 * b.val + l.val), by omega⟩
/-- Column `d` of the first half of a 512-column matrix. -/
def lo256 (d : Fin 256) : Fin 512 := ⟨d.val, by omega⟩
/-- Column `d` of the second half of a 512-column matrix. -/
def hi256 (d : Fin 256) : Fin 512 := ⟨256 + d.val, by omega⟩

theorem row_div (b : Fin 32) (l : Fin 200) : (row b l).val / 200 = b.val := by
  show (200 * b.val + l.val) / 200 = b.val
  omega
theorem row_mod (b : Fin 32) (l : Fin 200) : (row b l).val % 200 = l.val := by
  show (200 * b.val + l.val) % 200 = l.val
  omega

/-! ## The layers -/

section Layers

variable (E : (⟨3, ![2048, 200, 256]⟩ : Shape).Idx → EReal) (Hr : Fin 2048 → Fin 200 → Fin 5)
  (U : (⟨2, ![2048, 256]⟩ : Shape).Idx → EReal) (R : (⟨2, ![5, 256]⟩ : Shape).Idx → EReal)
  (W1 : (⟨2, ![256, 512]⟩ : Shape).Idx → EReal) (B1 : (⟨1, ![256]⟩ : Shape).Idx → EReal)
  (W2 : (⟨2, ![256, 256]⟩ : Shape).Idx → EReal) (B2 : (⟨1, ![256]⟩ : Shape).Idx → EReal)
  (A1 : (⟨2, ![256, 512]⟩ : Shape).Idx → EReal) (AB1 : (⟨1, ![256]⟩ : Shape).Idx → EReal)
  (A2 : (⟨2, ![256, 256]⟩ : Shape).Idx → EReal) (AB2 : (⟨1, ![256]⟩ : Shape).Idx → EReal)
  (A3 : (⟨2, ![1, 256]⟩ : Shape).Idx → EReal) (AB3 : (⟨1, ![1]⟩ : Shape).Idx → EReal)

/-- First layer: the attribute row against the first half of `W1`, the rating row against the second, the bias, the rectifier. -/
def x1 (b : Fin 2048) (l : Fin 200) (k : Fin 256) : EReal :=
  max ((∑ d : Fin 256, E (ix3 b l d) * W1 (ix2 k (lo256 d)) + ∑ d : Fin 256, R (ix2 (Hr b l) d) * W1 (ix2 k (hi256 d)))
    + B1 (ix1 k)) 0

/-- Second layer. -/
def o (b : Fin 2048) (l : Fin 200) (k : Fin 256) : EReal :=
  max (∑ d : Fin 256, x1 E Hr R W1 B1 b l d * W2 (ix2 k d) + B2 (ix1 k)) 0

/-- Third layer: `o` against the first half of `A1`, the user row against the second. -/
def h1 (b : Fin 2048) (l : Fin 200) (k : Fin 256) : EReal :=
  max ((∑ d : Fin 256, o E Hr R W1 B1 W2 B2 b l d * A1 (ix2 k (lo256 d)) + ∑ d : Fin 256, U (ix2 b d) * A1 (ix2 k (hi256 d)))
    + AB1 (ix1 k)) 0

/-- Fourth layer. -/
def h2 (b : Fin 2048) (l : Fin 200) (k : Fin 256) : EReal :=
  max (∑ d : Fin 256, h1 E Hr U R W1 B1 W2 B2 A1 AB1 b l d * A2 (ix2 k d) + AB2 (ix1 k)) 0

/-- The attention score of position `l`. -/
def score (b : Fin 2048) (l : Fin 200) : EReal :=
  ∑ d : Fin 256, h2 E Hr U R W1 B1 W2 B2 A1 AB1 A2 AB2 b l d * A3 (ix2 (0 : Fin 1) d) + AB3 (ix1 (0 : Fin 1))

/-- The largest score of batch row `b`. -/
def smax (b : Fin 2048) : EReal :=
  (Finset.univ : Finset (Fin 200)).fold max ⊥ (fun l => score E Hr U R W1 B1 W2 B2 A1 AB1 A2 AB2 A3 AB3 b l)

/-- The softmax-weighted sum of the `o b l`. -/
def out (b : Fin 2048) (k : Fin 256) : EReal :=
  ∑ l : Fin 200, o E Hr R W1 B1 W2 B2 b l k
    * Ideal.div (Ideal.exp (score E Hr U R W1 B1 W2 B2 A1 AB1 A2 AB2 A3 AB3 b l - smax E Hr U R W1 B1 W2 B2 A1 AB1 A2 AB2 A3 AB3 b))
        (∑ l' : Fin 200, Ideal.exp (score E Hr U R W1 B1 W2 B2 A1 AB1 A2 AB2 A3 AB3 b l' - smax E Hr U R W1 B1 W2 B2 A1 AB1 A2 AB2 A3 AB3 b))

end Layers

/-! ## The two laws -/

/-- A sum over 512 columns is the sum over the first 256 plus the sum over the last 256. -/
theorem sum_cat (f : Fin 512 → EReal) : ∑ d : Fin 512, f d = ∑ d : Fin 256, f (lo256 d) + ∑ d : Fin 256, f (hi256 d) := by
  have h := Fin.sum_univ_add (a := 256) (b := 256) (f : Fin (256 + 256) → EReal)
  refine h.trans ?_
  congr 1

/-- A sum against the indicator of one index is the term at that index. -/
theorem sum_indicator {n : Nat} (h : Fin n) (g : Fin n → EReal) :
    ∑ j : Fin n, (if j = h then (1 : EReal) else 0) * g j = g h := by
  rw [Finset.sum_eq_single h]
  · rw [if_pos rfl, one_mul]
  · intro j _ hj; rw [if_neg hj, zero_mul]
  · intro hh; exact absurd (Finset.mem_univ h) hh

/-- The largest of `⊥` and `x` is `x`. -/
theorem max_bot_left (x : EReal) : max ⊥ x = x := max_eq_right bot_le

end Cert.Agg

end
-- ==== Proof.PreDecode.lean ====
/-
  The precondition, decoded: every rating index is one of 0, 1, 2, 3, 4.

  The printed precondition is a conjunction, taken with `and` on one-bit words, of "every entry of the array satisfies
  …" tests, each an `and`-reduction of a one-bit array over all its entries. Its last two conjuncts say that every
  rating index is at least 0 and below 5 as signed 32-bit words; a word in that signed range has a value below 5.
-/
import proofs.«416470_j90829968376432_3_alg».proof.Pre_finite_inputs
import Idealize.ShloMosaic.Lib.ReduceAll
import Idealize.ShloMosaic.Lib.ValueIdx

noncomputable section

namespace Cert.Agg.Pre

open Idealize.ShloMosaic Idealize.ShloMosaic.ValueIdx Cert.Pre_finite_inputs

variable {F : FTy → Type} [FloatOps F] [Cert.Pre_finite_inputs.Facts]

instance : Subsingleton S_.Idx := ⟨fun a b => funext fun d => d.elim0⟩

theorem ofBool_eq_one (b : Bool) : BitVec.ofBool b = 1#1 ↔ b = true := by cases b <;> decide

/-- A word that is at least 0 and below 5 as a signed number has a value below 5. -/
theorem toNat_lt_five (w : BitVec 32) (h0 : IntOp.cmpi .sge w (0#32) = 1#1) (h5 : IntOp.cmpi .slt w (5#32) = 1#1) :
    w.toNat < 5 := by
  unfold IntOp.cmpi at h0 h5
  rw [ofBool_eq_one] at h0 h5
  simp only [BitVec.slt, BitVec.sle, decide_eq_true_eq] at h0 h5
  have h32 := w.isLt
  unfold BitVec.toInt at h0 h5
  split at h5 <;> simp at h0 h5 <;> omega

/-- Every rating index is below 5, when the precondition holds. -/
theorem hist_lt (a0 : IVec S2048 32) (a1 a2 a3 : IVec S2048x200 32) (a4 : FVec F S100000x256 .f32) (a5 : FVec F S50000x256 .f32)
    (a6 : FVec F S5x256 .f32) (a7 : FVec F S256x512 .f32) (a8 : FVec F S256 .f32) (a9 : FVec F S256x256 .f32)
    (a10 : FVec F S256 .f32) (a11 : FVec F S256x512 .f32) (a12 : FVec F S256 .f32) (a13 : FVec F S256x256 .f32)
    (a14 : FVec F S256 .f32) (a15 : FVec F S1x256 .f32) (a16 : FVec F S1 .f32)
    (h : Cert.Pre_finite_inputs.fn (F := F) a0 a1 a2 a3 a4 a5 a6 a7 a8 a9 a10 a11 a12 a13 a14 a15 a16 = fun _ => 1#1)
    (i : S2048x200.Idx) : (a2 i).toNat < 5 := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  obtain ⟨e1, e5⟩ := IntOp.andi_eq_one.1 e
  obtain ⟨-, e0⟩ := IntOp.andi_eq_one.1 e1
  have g0 := Host.reduce_andi_all _ _ _ _ _ e0 i
  have g5 := Host.reduce_andi_all _ _ _ _ _ e5 i
  exact toNat_lt_five (a2 i) g0 g5

end Cert.Agg.Pre

end
-- ==== Proof.PayO.lean ====
/-
  The kernel body's first two layers at one element.

  The body holds a block of 32 batch rows as 6400 history rows. At history row `(b, l)` and column `k` the value it calls
  `o` is: the attribute row against the first weight matrix, plus the indicator row of the rating index against the
  projected rating table (eight rows), plus the bias, rectified; then that row against the second weight matrix, plus
  its bias, rectified.
-/
import proofs.«416470_j90829968376432_3_alg».proof.Proof.Gen.KernelIdeal.Skeleton
import proofs.«416470_j90829968376432_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Agg.Kernel

open Idealize.ShloMosaic Idealize.ShloMosaic.ValueIdx Cert.KernelIdeal Cert.KernelIdeal.Gen Cert.Agg

/-! ## The two products read at an element -/

private theorem lhsA_0 (i : S6400x256.Idx) (q : dot_S6400x256_S256x256_S6400x256_1_0_0_1_n_n.contr.Idx) :
    (dot_S6400x256_S256x256_S6400x256_1_0_0_1_n_n.lhsIdx i q 0).val = (i 0).val := by
  unfold DotDims.lhsIdx
  rw [dif_neg (show ¬(0 : Fin S6400x256.rank) ∈ dot_S6400x256_S256x256_S6400x256_1_0_0_1_n_n.lhsBatch by decide), dif_pos (show (0 : Fin S6400x256.rank) ∈ dot_S6400x256_S256x256_S6400x256_1_0_0_1_n_n.lhsNonContracting by decide)]
  rfl
private theorem lhsA_1 (i : S6400x256.Idx) (q : dot_S6400x256_S256x256_S6400x256_1_0_0_1_n_n.contr.Idx) :
    (dot_S6400x256_S256x256_S6400x256_1_0_0_1_n_n.lhsIdx i q 1).val = (q ⟨0, by decide⟩).val :=
  dot_S6400x256_S256x256_S6400x256_1_0_0_1_n_n.lhsIdx_val_of_single rfl i q
private theorem rhsA_0 (i : S6400x256.Idx) (q : dot_S6400x256_S256x256_S6400x256_1_0_0_1_n_n.contr.Idx) :
    (dot_S6400x256_S256x256_S6400x256_1_0_0_1_n_n.rhsIdx i q 0).val = (q ⟨0, by decide⟩).val :=
  dot_S6400x256_S256x256_S6400x256_1_0_0_1_n_n.rhsIdx_val_of_single rfl i q
private theorem rhsA_1 (i : S6400x256.Idx) (q : dot_S6400x256_S256x256_S6400x256_1_0_0_1_n_n.contr.Idx) :
    (dot_S6400x256_S256x256_S6400x256_1_0_0_1_n_n.rhsIdx i q 1).val = (i 1).val := by
  unfold DotDims.rhsIdx
  rw [dif_neg (show ¬(1 : Fin S256x256.rank) ∈ dot_S6400x256_S256x256_S6400x256_1_0_0_1_n_n.rhsBatch by decide), dif_pos (show (1 : Fin S256x256.rank) ∈ dot_S6400x256_S256x256_S6400x256_1_0_0_1_n_n.rhsNonContracting by decide)]
  rfl

/-- A 6400×256 by 256×256 product into the zero accumulator, at row `r` and column `k`: the sum over the 256 shared
    positions of the products of the elements. -/
private theorem matmulA_apply {φ₁ φ₂ : FTy} (X : FVec Ideal S6400x256 φ₁) (W : FVec Ideal S256x256 φ₂) (r : Fin 6400) (k : Fin 256) :
    matmul dot_S6400x256_S256x256_S6400x256_1_0_0_1_n_n none X W (constant (F := Ideal) S6400x256 .f32 0x00000000#32) (ix2 r k)
      = ∑ d : Fin 256, X (ix2 r d) * W (ix2 d k) := by
  refine (Ideal.matmul_constant_zero_apply dot_S6400x256_S256x256_S6400x256_1_0_0_1_n_n none X W (ix2 r k)).trans ?_
  rw [← Equiv.sum_comp (contrEquiv1 dot_S6400x256_S256x256_S6400x256_1_0_0_1_n_n 256 rfl rfl).symm]
  refine Finset.sum_congr rfl fun d _ => ?_
  have hk := contrEquiv1_symm_val dot_S6400x256_S256x256_S6400x256_1_0_0_1_n_n 256 rfl rfl d
  have el : dot_S6400x256_S256x256_S6400x256_1_0_0_1_n_n.lhsIdx (ix2 r k) ((contrEquiv1 dot_S6400x256_S256x256_S6400x256_1_0_0_1_n_n 256 rfl rfl).symm d) = ix2 r d := funext fun a => Fin.ext (by
    match a with
    | ⟨0, _⟩ => exact lhsA_0 _ _
    | ⟨1, _⟩ => exact (lhsA_1 _ _).trans hk)
  have er : dot_S6400x256_S256x256_S6400x256_1_0_0_1_n_n.rhsIdx (ix2 r k) ((contrEquiv1 dot_S6400x256_S256x256_S6400x256_1_0_0_1_n_n 256 rfl rfl).symm d) = ix2 d k := funext fun a => Fin.ext (by
    match a with
    | ⟨0, _⟩ => exact (rhsA_0 _ _).trans hk
    | ⟨1, _⟩ => exact rhsA_1 _ _)
  rw [el, er]

private theorem lhsB_0 (i : S6400x256.Idx) (q : dot_S6400x8_S8x256_S6400x256_1_0_0_1_n_n.contr.Idx) :
    (dot_S6400x8_S8x256_S6400x256_1_0_0_1_n_n.lhsIdx i q 0).val = (i 0).val := by
  unfold DotDims.lhsIdx
  rw [dif_neg (show ¬(0 : Fin S6400x8.rank) ∈ dot_S6400x8_S8x256_S6400x256_1_0_0_1_n_n.lhsBatch by decide), dif_pos (show (0 : Fin S6400x8.rank) ∈ dot_S6400x8_S8x256_S6400x256_1_0_0_1_n_n.lhsNonContracting by decide)]
  rfl
private theorem lhsB_1 (i : S6400x256.Idx) (q : dot_S6400x8_S8x256_S6400x256_1_0_0_1_n_n.contr.Idx) :
    (dot_S6400x8_S8x256_S6400x256_1_0_0_1_n_n.lhsIdx i q 1).val = (q ⟨0, by decide⟩).val :=
  dot_S6400x8_S8x256_S6400x256_1_0_0_1_n_n.lhsIdx_val_of_single rfl i q
private theorem rhsB_0 (i : S6400x256.Idx) (q : dot_S6400x8_S8x256_S6400x256_1_0_0_1_n_n.contr.Idx) :
    (dot_S6400x8_S8x256_S6400x256_1_0_0_1_n_n.rhsIdx i q 0).val = (q ⟨0, by decide⟩).val :=
  dot_S6400x8_S8x256_S6400x256_1_0_0_1_n_n.rhsIdx_val_of_single rfl i q
private theorem rhsB_1 (i : S6400x256.Idx) (q : dot_S6400x8_S8x256_S6400x256_1_0_0_1_n_n.contr.Idx) :
    (dot_S6400x8_S8x256_S6400x256_1_0_0_1_n_n.rhsIdx i q 1).val = (i 1).val := by
  unfold DotDims.rhsIdx
  rw [dif_neg (show ¬(1 : Fin S8x256.rank) ∈ dot_S6400x8_S8x256_S6400x256_1_0_0_1_n_n.rhsBatch by decide), dif_pos (show (1 : Fin S8x256.rank) ∈ dot_S6400x8_S8x256_S6400x256_1_0_0_1_n_n.rhsNonContracting by decide)]
  rfl

/-- A 6400×8 by 8×256 product into the zero accumulator, at row `r` and column `k`: the sum over the eight shared
    positions. -/
private theorem matmulB_apply {φ₁ φ₂ : FTy} (X : FVec Ideal S6400x8 φ₁) (W : FVec Ideal S8x256 φ₂) (r : Fin 6400) (k : Fin 256) :
    matmul dot_S6400x8_S8x256_S6400x256_1_0_0_1_n_n none X W (constant (F := Ideal) S6400x256 .f32 0x00000000#32) (ix2 r k)
      = ∑ j : Fin 8, X (ix2 r j) * W (ix2 j k) := by
  refine (Ideal.matmul_constant_zero_apply dot_S6400x8_S8x256_S6400x256_1_0_0_1_n_n none X W (ix2 r k)).trans ?_
  rw [← Equiv.sum_comp (contrEquiv1 dot_S6400x8_S8x256_S6400x256_1_0_0_1_n_n 8 rfl rfl).symm]
  refine Finset.sum_congr rfl fun d _ => ?_
  have hk := contrEquiv1_symm_val dot_S6400x8_S8x256_S6400x256_1_0_0_1_n_n 8 rfl rfl d
  have el : dot_S6400x8_S8x256_S6400x256_1_0_0_1_n_n.lhsIdx (ix2 r k) ((contrEquiv1 dot_S6400x8_S8x256_S6400x256_1_0_0_1_n_n 8 rfl rfl).symm d) = ix2 r d := funext fun a => Fin.ext (by
    match a with
    | ⟨0, _⟩ => exact lhsB_0 _ _
    | ⟨1, _⟩ => exact (lhsB_1 _ _).trans hk)
  have er : dot_S6400x8_S8x256_S6400x256_1_0_0_1_n_n.rhsIdx (ix2 r k) ((contrEquiv1 dot_S6400x8_S8x256_S6400x256_1_0_0_1_n_n 8 rfl rfl).symm d) = ix2 d k := funext fun a => Fin.ext (by
    match a with
    | ⟨0, _⟩ => exact (rhsB_0 _ _).trans hk
    | ⟨1, _⟩ => exact rhsB_1 _ _)
  rw [el, er]

/-! ## The indicator row of the rating index -/

/-- The word a decided comparison converts to: `1` when the two words are equal, `0` otherwise. -/
private theorem sitofp_eq_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h
    rw [if_pos rfl]
    have e : IntOp.cmpi .eq x x = 1#1 := by simp [IntOp.cmpi]
    rw [e]
    have e2 : ((1#1).setWidth 32 : BitVec 32).toInt = 1 := by decide
    rw [e2]; simp
  · rw [if_neg h]
    have hne : (x == y) = false := beq_eq_false_iff_ne.mpr h
    have e : IntOp.cmpi .eq x y = 0#1 := by
      show BitVec.ofBool (x == y) = 0#1
      rw [hne]; rfl
    rw [e]
    have e2 : ((0#1).setWidth 32 : BitVec 32).toInt = 0 := by decide
    rw [e2]; simp

/-- The body's indicator operand at history row `(b, l)`, position `j`: one exactly when `j` is the rating index there. -/
private theorem oneHot_apply (v2 : IVec S32x200 32) (b : Fin 32) (l : Fin 200) (j : Fin 8) :
    shapeCast S6400x8 (truncf (F := Ideal) .bf16 (sitofp (F := Ideal) .f32 (extui 32 (cmpi .eq (iota .tc S32x200x8 32 [2] iota_S32x200x8_d2_w32)
        (broadcastTo S32x200x8 (shapeCast S32x200x1 v2 shapeCasts_S32x200_S32x200x1) broadcasts_S32x200x1_S32x200x8)) natLt_1_32)) bitsLt_bf16_f32)
      shapeCasts_S32x200x8_S6400x8 (ix2 (row b l) j)
      = if BitVec.ofNat 32 j.val = v2 (ix2 b l) then (1 : EReal) else 0 := by
  refine (shapeCast_apply _ shapeCasts_S32x200x8_S6400x8 (ix2 (row b l) j) (ix3 b l j) ?_).trans ?_
  · rw [Shape.rowMajor_val_three, Shape.rowMajor_val_two]
    show (b.val * 200 + l.val) * 8 + j.val = (200 * b.val + l.val) * 8 + j.val
    omega
  · have hi : iota .tc S32x200x8 32 [2] iota_S32x200x8_d2_w32 (ix3 b l j) = BitVec.ofNat 32 j.val :=
      iota_single_apply .tc S32x200x8 32 2 iota_S32x200x8_d2_w32 (ix3 b l j)
    have hb : broadcastTo S32x200x8 (shapeCast S32x200x1 v2 shapeCasts_S32x200_S32x200x1) broadcasts_S32x200x1_S32x200x8 (ix3 b l j)
        = v2 (ix2 b l) := by
      refine (broadcastTo_apply _ broadcasts_S32x200x1_S32x200x8 (ix3 b l j) (ix3 b l (0 : Fin 1)) fun a => ?_).trans ?_
      · match a with
        | ⟨0, _⟩ => rfl
        | ⟨1, _⟩ => rfl
        | ⟨2, _⟩ => rfl
      · refine shapeCast_apply v2 shapeCasts_S32x200_S32x200x1 (ix3 b l (0 : Fin 1)) (ix2 b l) ?_
        rw [Shape.rowMajor_val_three, Shape.rowMajor_val_two]
        show b.val * 200 + l.val = (b.val * 200 + l.val) * 1 + 0
        omega
    show (FloatOps.sitofp (F := Ideal) .f32 ((IntOp.cmpi .eq (iota .tc S32x200x8 32 [2] iota_S32x200x8_d2_w32 (ix3 b l j))
        (broadcastTo S32x200x8 (shapeCast S32x200x1 v2 shapeCasts_S32x200_S32x200x1) broadcasts_S32x200x1_S32x200x8 (ix3 b l j))).setWidth 32) : EReal) = _
    rw [hi, hb]
    exact sitofp_eq_word _ _

/-! ## The first layer as a formula -/

/-- The body's first layer at history row `(b, l)`, column `d`, over the loaded blocks. -/
def natX1 (v0 : FVec Ideal S6400x256 .bf16) (v2 : IVec S32x200 32) (v11 : FVec Ideal S8x256 .bf16)
    (v14 : FVec Ideal S256x256 .bf16) (v16 : FVec Ideal S1x256 .f32) (b : Fin 32) (l : Fin 200) (d : Fin 256) : EReal :=
  max ((∑ d' : Fin 256, v0 (ix2 (row b l) d') * v14 (ix2 d' d)
        + ∑ j : Fin 8, (if BitVec.ofNat 32 j.val = v2 (ix2 b l) then (1 : EReal) else 0) * v11 (ix2 j d))
      + v16 (ix2 (0 : Fin 1) d)) 0

/-! ## The two layers -/

/-- The bias row broadcast over the 6400 history rows, at row `r` and column `k`: the bias at `k`. -/
private theorem bias_apply (B : FVec Ideal S1x256 .f32) (h₁ : S1x256.ShapeCasts S1x256) (h₂ : S1x256.Broadcasts S6400x256)
    (r : Fin 6400) (k : Fin 256) :
    broadcastTo S6400x256 (shapeCast S1x256 B h₁) h₂ (ix2 r k) = B (ix2 (0 : Fin 1) k) := by
  rw [shapeCast_self]
  exact broadcastTo_1b_ab_apply B h₂ r k

/-- The rectifier's zero at any element. -/
private theorem zero_apply (i : S6400x256.Idx) :
    broadcast S6400x256 (Scalar.ofBits (F := Ideal) .f32 0x00000000#32) i = (0 : EReal) :=
  Ideal.ofBits_zero_f32

/-- The first layer at history row `(b, l)`, column `d`. -/
private theorem layer1_apply (v0 : FVec Ideal S6400x256 .bf16) (v2 : IVec S32x200 32) (v11 : FVec Ideal S8x256 .bf16)
    (v14 : FVec Ideal S256x256 .bf16) (v16 : FVec Ideal S1x256 .f32)
    (h0 : S6400x256.ShapeCasts S6400x256) (h11 : S8x256.ShapeCasts S8x256) (h14 : S256x256.ShapeCasts S256x256)
    (h16 : S1x256.ShapeCasts S1x256) (hb : S1x256.Broadcasts S6400x256)
    (b : Fin 32) (l : Fin 200) (d : Fin 256) :
    maximumf
      (addf
        (addf
          (matmul dot_S6400x256_S256x256_S6400x256_1_0_0_1_n_n none (shapeCast S6400x256 v0 h0) (shapeCast S256x256 v14 h14)
            (constant (F := Ideal) S6400x256 .f32 0x00000000#32))
          (matmul dot_S6400x8_S8x256_S6400x256_1_0_0_1_n_n none
            (shapeCast S6400x8 (truncf (F := Ideal) .bf16 (sitofp (F := Ideal) .f32 (extui 32 (cmpi .eq (iota .tc S32x200x8 32 [2] iota_S32x200x8_d2_w32)
              (broadcastTo S32x200x8 (shapeCast S32x200x1 v2 shapeCasts_S32x200_S32x200x1) broadcasts_S32x200x1_S32x200x8)) natLt_1_32)) bitsLt_bf16_f32)
              shapeCasts_S32x200x8_S6400x8)
            (shapeCast S8x256 v11 h11) (constant (F := Ideal) S6400x256 .f32 0x00000000#32)))
        (broadcastTo S6400x256 (shapeCast S1x256 v16 h16) hb))
      (broadcast S6400x256 (Scalar.ofBits (F := Ideal) .f32 0x00000000#32)) (ix2 (row b l) d)
      = natX1 v0 v2 v11 v14 v16 b l d := by
  unfold natX1
  rw [maximumf_apply, addf_apply, addf_apply, zero_apply, bias_apply, matmulA_apply, matmulB_apply,
    shapeCast_self v0, shapeCast_self v14, shapeCast_self v11]
  refine congrArg (fun t => max ((_ + t) + _) 0) ?_
  exact Finset.sum_congr rfl fun j _ => congrArg (· * _) (oneHot_apply v2 b l j)

/-- The body's second layer at history row `(b, l)`, column `k`: the payload `k0_pay2` read at that element. -/
theorem payO_apply (v0 : FVec Ideal S6400x256 .bf16) (v2 : IVec S32x200 32) (v11 : FVec Ideal S8x256 .bf16)
    (v14 : FVec Ideal S256x256 .bf16) (v16 : FVec Ideal S1x256 .f32) (v24 : FVec Ideal S256x256 .bf16)
    (v26 : FVec Ideal S1x256 .f32) (b : Fin 32) (l : Fin 200) (k : Fin 256) :
    k0_pay2 (F := Ideal) v0 v2 v11 v14 v16 v24 v26 (ix2 (row b l) k)
      = max (∑ d : Fin 256, natX1 v0 v2 v11 v14 v16 b l d * v24 (ix2 d k) + v26 (ix2 (0 : Fin 1) k)) 0 := by
  unfold k0_pay2
  rw [maximumf_apply, addf_apply, zero_apply, bias_apply, matmulA_apply, shapeCast_self v24]
  refine congrArg (fun t => max (t + _) 0) ?_
  refine Finset.sum_congr rfl fun d _ => congrArg (· * _) ?_
  exact layer1_apply v0 v2 v11 v14 v16 _ _ _ _ _ b l d

end Cert.Agg.Kernel

end
-- ==== Proof.PayScore.lean ====
/-
  The kernel body's attention score at one element, and the row maximum it subtracts.

  At local batch row `b` and position `l` the score is: `o` at history row `(b, l)` against the first attention matrix
  plus the user row `b` against the second, plus a bias, rectified; that row against the third matrix plus a bias,
  rectified; that row against the score vector, plus the score bias. The row maximum is the largest of the 200 scores of
  batch row `b`, starting from `⊥`.
-/
import proofs.«416470_j90829968376432_3_alg».proof.Proof.Gen.KernelIdeal.Skeleton
import proofs.«416470_j90829968376432_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Agg.Kernel

open Idealize.ShloMosaic Idealize.ShloMosaic.ValueIdx Cert.KernelIdeal Cert.KernelIdeal.Gen Cert.Agg

/-- The body's third layer at history row `(b, l)`, column `d`. -/
def natH1 (v33 : FVec Ideal S6400x256 .f32) (v35 : FVec Ideal S32x256 .bf16) (v36 v38 : FVec Ideal S256x256 .bf16)
    (v40 : FVec Ideal S1x256 .f32) (b : Fin 32) (l : Fin 200) (d : Fin 256) : EReal :=
  max ((∑ d' : Fin 256, v33 (ix2 (row b l) d') * v36 (ix2 d' d) + ∑ d' : Fin 256, v35 (ix2 b d') * v38 (ix2 d' d))
      + v40 (ix2 (0 : Fin 1) d)) 0

/-- The body's fourth layer at history row `(b, l)`, column `d`. -/
def natH2 (v33 : FVec Ideal S6400x256 .f32) (v35 : FVec Ideal S32x256 .bf16) (v36 v38 : FVec Ideal S256x256 .bf16)
    (v40 : FVec Ideal S1x256 .f32) (v54 : FVec Ideal S256x256 .bf16) (v56 : FVec Ideal S1x256 .f32)
    (b : Fin 32) (l : Fin 200) (d : Fin 256) : EReal :=
  max (∑ d' : Fin 256, natH1 v33 v35 v36 v38 v40 b l d' * v54 (ix2 d' d) + v56 (ix2 (0 : Fin 1) d)) 0

/-! ### The two matrix products read at an element -/

private theorem dotA_lhs_0 (j : S6400x256.Idx) (q : dot_S6400x256_S256x256_S6400x256_1_0_0_1_n_n.contr.Idx) :
    (dot_S6400x256_S256x256_S6400x256_1_0_0_1_n_n.lhsIdx j q 0).val = (j 0).val := by
  unfold DotDims.lhsIdx
  rw [dif_neg (show ¬(0 : Fin S6400x256.rank) ∈ dot_S6400x256_S256x256_S6400x256_1_0_0_1_n_n.lhsBatch by decide),
    dif_pos (show (0 : Fin S6400x256.rank) ∈ dot_S6400x256_S256x256_S6400x256_1_0_0_1_n_n.lhsNonContracting by decide)]
  rfl
private theorem dotA_lhs_1 (j : S6400x256.Idx) (q : dot_S6400x256_S256x256_S6400x256_1_0_0_1_n_n.contr.Idx) :
    (dot_S6400x256_S256x256_S6400x256_1_0_0_1_n_n.lhsIdx j q 1).val = (q ⟨0, by decide⟩).val :=
  dot_S6400x256_S256x256_S6400x256_1_0_0_1_n_n.lhsIdx_val_of_single rfl j q
private theorem dotA_rhs_0 (j : S6400x256.Idx) (q : dot_S6400x256_S256x256_S6400x256_1_0_0_1_n_n.contr.Idx) :
    (dot_S6400x256_S256x256_S6400x256_1_0_0_1_n_n.rhsIdx j q 0).val = (q ⟨0, by decide⟩).val :=
  dot_S6400x256_S256x256_S6400x256_1_0_0_1_n_n.rhsIdx_val_of_single rfl j q
private theorem dotA_rhs_1 (j : S6400x256.Idx) (q : dot_S6400x256_S256x256_S6400x256_1_0_0_1_n_n.contr.Idx) :
    (dot_S6400x256_S256x256_S6400x256_1_0_0_1_n_n.rhsIdx j q 1).val = (j 1).val := by
  unfold DotDims.rhsIdx
  rw [dif_neg (show ¬(1 : Fin S256x256.rank) ∈ dot_S6400x256_S256x256_S6400x256_1_0_0_1_n_n.rhsBatch by decide),
    dif_pos (show (1 : Fin S256x256.rank) ∈ dot_S6400x256_S256x256_S6400x256_1_0_0_1_n_n.rhsNonContracting by decide)]
  rfl

/-- The 6400-row product into the zero splat, at `(r, k)`: the sum over the 256 contracted columns. -/
private theorem matmulA_apply {φ₁ φ₂ : FTy} (X : FVec Ideal S6400x256 φ₁) (W : FVec Ideal S256x256 φ₂) (r : Fin 6400) (k : Fin 256) :
    matmul dot_S6400x256_S256x256_S6400x256_1_0_0_1_n_n none X W (constant S6400x256 .f32 0x00000000#32) (ix2 r k)
      = ∑ d : Fin 256, X (ix2 r d) * W (ix2 d k) := by
  simp only [matmul]
  rw [Ideal.matmul_constant_zero_apply, ← Equiv.sum_comp (contrEquiv1 dot_S6400x256_S256x256_S6400x256_1_0_0_1_n_n 256 rfl rfl).symm]
  refine Finset.sum_congr rfl fun d _ => ?_
  have hd := contrEquiv1_symm_val dot_S6400x256_S256x256_S6400x256_1_0_0_1_n_n 256 rfl rfl d
  have el : dot_S6400x256_S256x256_S6400x256_1_0_0_1_n_n.lhsIdx (ix2 r k) ((contrEquiv1 dot_S6400x256_S256x256_S6400x256_1_0_0_1_n_n 256 rfl rfl).symm d) = ix2 r d :=
    funext fun a => Fin.ext (by
      match a with
      | ⟨0, _⟩ => exact dotA_lhs_0 _ _
      | ⟨1, _⟩ => exact (dotA_lhs_1 _ _).trans hd)
  have er : dot_S6400x256_S256x256_S6400x256_1_0_0_1_n_n.rhsIdx (ix2 r k) ((contrEquiv1 dot_S6400x256_S256x256_S6400x256_1_0_0_1_n_n 256 rfl rfl).symm d) = ix2 d k :=
    funext fun a => Fin.ext (by
      match a with
      | ⟨0, _⟩ => exact (dotA_rhs_0 _ _).trans hd
      | ⟨1, _⟩ => exact dotA_rhs_1 _ _)
  rw [el, er]

private theorem dotB_lhs_0 (j : S32x256.Idx) (q : dot_S32x256_S256x256_S32x256_1_0_0_1_n_n.contr.Idx) :
    (dot_S32x256_S256x256_S32x256_1_0_0_1_n_n.lhsIdx j q 0).val = (j 0).val := by
  unfold DotDims.lhsIdx
  rw [dif_neg (show ¬(0 : Fin S32x256.rank) ∈ dot_S32x256_S256x256_S32x256_1_0_0_1_n_n.lhsBatch by decide),
    dif_pos (show (0 : Fin S32x256.rank) ∈ dot_S32x256_S256x256_S32x256_1_0_0_1_n_n.lhsNonContracting by decide)]
  rfl
private theorem dotB_lhs_1 (j : S32x256.Idx) (q : dot_S32x256_S256x256_S32x256_1_0_0_1_n_n.contr.Idx) :
    (dot_S32x256_S256x256_S32x256_1_0_0_1_n_n.lhsIdx j q 1).val = (q ⟨0, by decide⟩).val :=
  dot_S32x256_S256x256_S32x256_1_0_0_1_n_n.lhsIdx_val_of_single rfl j q
private theorem dotB_rhs_0 (j : S32x256.Idx) (q : dot_S32x256_S256x256_S32x256_1_0_0_1_n_n.contr.Idx) :
    (dot_S32x256_S256x256_S32x256_1_0_0_1_n_n.rhsIdx j q 0).val = (q ⟨0, by decide⟩).val :=
  dot_S32x256_S256x256_S32x256_1_0_0_1_n_n.rhsIdx_val_of_single rfl j q
private theorem dotB_rhs_1 (j : S32x256.Idx) (q : dot_S32x256_S256x256_S32x256_1_0_0_1_n_n.contr.Idx) :
    (dot_S32x256_S256x256_S32x256_1_0_0_1_n_n.rhsIdx j q 1).val = (j 1).val := by
  unfold DotDims.rhsIdx
  rw [dif_neg (show ¬(1 : Fin S256x256.rank) ∈ dot_S32x256_S256x256_S32x256_1_0_0_1_n_n.rhsBatch by decide),
    dif_pos (show (1 : Fin S256x256.rank) ∈ dot_S32x256_S256x256_S32x256_1_0_0_1_n_n.rhsNonContracting by decide)]
  rfl

/-- The 32-row product into the zero splat, at `(b, k)`. -/
private theorem matmulB_apply {φ₁ φ₂ : FTy} (X : FVec Ideal S32x256 φ₁) (W : FVec Ideal S256x256 φ₂) (b : Fin 32) (k : Fin 256) :
    matmul dot_S32x256_S256x256_S32x256_1_0_0_1_n_n none X W (constant S32x256 .f32 0x00000000#32) (ix2 b k)
      = ∑ d : Fin 256, X (ix2 b d) * W (ix2 d k) := by
  simp only [matmul]
  rw [Ideal.matmul_constant_zero_apply, ← Equiv.sum_comp (contrEquiv1 dot_S32x256_S256x256_S32x256_1_0_0_1_n_n 256 rfl rfl).symm]
  refine Finset.sum_congr rfl fun d _ => ?_
  have hd := contrEquiv1_symm_val dot_S32x256_S256x256_S32x256_1_0_0_1_n_n 256 rfl rfl d
  have el : dot_S32x256_S256x256_S32x256_1_0_0_1_n_n.lhsIdx (ix2 b k) ((contrEquiv1 dot_S32x256_S256x256_S32x256_1_0_0_1_n_n 256 rfl rfl).symm d) = ix2 b d :=
    funext fun a => Fin.ext (by
      match a with
      | ⟨0, _⟩ => exact dotB_lhs_0 _ _
      | ⟨1, _⟩ => exact (dotB_lhs_1 _ _).trans hd)
  have er : dot_S32x256_S256x256_S32x256_1_0_0_1_n_n.rhsIdx (ix2 b k) ((contrEquiv1 dot_S32x256_S256x256_S32x256_1_0_0_1_n_n 256 rfl rfl).symm d) = ix2 d k :=
    funext fun a => Fin.ext (by
      match a with
      | ⟨0, _⟩ => exact (dotB_rhs_0 _ _).trans hd
      | ⟨1, _⟩ => exact dotB_rhs_1 _ _)
  rw [el, er]

/-! ### The layout operations of the score, read at an element -/

/-- The user-row term: a `[32, 256]` array viewed as `[32, 1, 256]`, repeated along the 200 positions and flattened to
    6400 rows, reads at history row `(b, l)`, column `k`, the array at `(b, k)`. -/
private theorem userRow_apply (Y : FVec Ideal S32x256 .f32) (b : Fin 32) (l : Fin 200) (k : Fin 256) :
    shapeCast S6400x256 (broadcastTo S32x200x256 (shapeCast S32x1x256 (shapeCast S32x1x256 Y shapeCasts_S32x256_S32x1x256)
        shapeCasts_S32x1x256_S32x1x256) broadcasts_S32x1x256_S32x200x256) shapeCasts_S32x200x256_S6400x256 (ix2 (row b l) k)
      = Y (ix2 b k) := by
  refine (shapeCast_apply _ _ (ix2 (row b l) k) (ix3 b l k) ?_).trans ?_
  · rw [Shape.rowMajor_val_three, Shape.rowMajor_val_two]
    show (b.val * 200 + l.val) * 256 + k.val = (200 * b.val + l.val) * 256 + k.val
    omega
  refine (broadcastTo_apply _ _ (ix3 b l k) (ix3 b (0 : Fin 1) k) (fun a => ?_)).trans ?_
  · match a with
    | ⟨0, _⟩ => rfl
    | ⟨1, _⟩ => rfl
    | ⟨2, _⟩ => rfl
  rw [shapeCast_self]
  refine shapeCast_apply _ _ (ix3 b (0 : Fin 1) k) (ix2 b k) ?_
  rw [Shape.rowMajor_val_three, Shape.rowMajor_val_two]
  show b.val * 256 + k.val = (b.val * 1 + 0) * 256 + k.val
  omega

/-- A sum over axis 1 of a `[6400, 256]` array, at row `r`: the sum over the 256 columns. -/
private theorem sumCols_apply (src : FVec Ideal S6400x256 .f32) (hφ : FKind.Formats .f32)
    (hacc : (0x00000000#32 : BitVec 32) = FKind.add.neutral .f32 hφ) (r : Fin 6400) :
    multiReduction (F := Ideal) .add [1] S6400 src 0x00000000#32 reduces_S6400x256_S6400 hφ hacc (ix1 r)
      = ∑ d : Fin 256, src (ix2 r d) := by
  refine (Ideal.multiReduction_add_single src _ reduces_S6400x256_S6400 hφ hacc (ix1 r)).trans ?_
  refine Finset.sum_congr rfl fun d _ => congrArg src ?_
  funext a
  match a with
  | ⟨0, _⟩ => rfl
  | ⟨1, _⟩ => rfl

/-- A bias row repeated over the 6400 rows reads its column. -/
private theorem biasRow_apply (v : FVec Ideal S1x256 .f32) (r : Fin 6400) (k : Fin 256) :
    broadcastTo S6400x256 (shapeCast S1x256 v shapeCasts_S1x256_S1x256) broadcasts_S1x256_S6400x256 (ix2 r k)
      = v (ix2 (0 : Fin 1) k) := by
  rw [shapeCast_self]
  exact broadcastTo_1b_ab_apply v _ r k

/-- The rectifier: the larger of an element and the zero splat. -/
private theorem relu_apply (A : FVec Ideal S6400x256 .f32) (j : S6400x256.Idx) :
    maximumf A (broadcast S6400x256 (FloatOps.ofBits (F := Ideal) .f32 0x00000000#32)) j = max (A j) 0 := by
  show max (A j) (Ideal.ofBits .f32 0x00000000#32) = max (A j) 0
  rw [Ideal.ofBits_zero_f32]

/-- The score at `(b, l)`: the payload `k0_pay4` read at that element. -/
theorem payS_apply (v33 : FVec Ideal S6400x256 .f32) (v35 : FVec Ideal S32x256 .bf16) (v36 v38 : FVec Ideal S256x256 .bf16)
    (v40 : FVec Ideal S1x256 .f32) (v54 : FVec Ideal S256x256 .bf16) (v56 v64 : FVec Ideal S1x256 .f32)
    (v65 : FVec Ideal S1x1 .f32) (b : Fin 32) (l : Fin 200) :
    k0_pay4 (F := Ideal) v33 v35 v36 v38 v40 v54 v56 v64 v65 (ix2 b l)
      = ∑ d : Fin 256, natH2 v33 v35 v36 v38 v40 v54 v56 b l d * v64 (ix2 (0 : Fin 1) d) + v65 (ix2 (0 : Fin 1) (0 : Fin 1)) := by
  unfold k0_pay4
  -- the [6400, 1] column viewed as [32, 200]: element (b, l) is row (b, l)
  refine (shapeCast_apply _ _ (ix2 b l) (ix2 (row b l) (0 : Fin 1)) ?_).trans ?_
  · rw [Shape.rowMajor_val_two, Shape.rowMajor_val_two]
    show (200 * b.val + l.val) * 1 + 0 = b.val * 200 + l.val
    omega
  refine (addf_apply _ _ _).trans ?_
  refine congrArg₂ (· + ·) ?_ ?_
  · -- the row sums viewed as a column
    refine (shapeCast_apply _ _ (ix2 (row b l) (0 : Fin 1)) (ix1 (row b l)) ?_).trans ?_
    · rw [Shape.rowMajor_val_one, Shape.rowMajor_val_two]
      show (200 * b.val + l.val) = (200 * b.val + l.val) * 1 + 0
      omega
    refine (sumCols_apply _ _ _ (row b l)).trans ?_
    refine Finset.sum_congr rfl fun d _ => ?_
    refine (mulf_apply _ _ _).trans ?_
    refine congrArg₂ (· * ·) ?_ (broadcastTo_1b_ab_apply v64 _ (row b l) d)
    -- the fourth layer at (row b l, d)
    refine (relu_apply _ _).trans ?_
    unfold natH2
    refine congrArg (max · 0) ?_
    refine (addf_apply _ _ _).trans ?_
    refine congrArg₂ (· + ·) ?_ (biasRow_apply v56 (row b l) d)
    refine (matmulA_apply _ _ (row b l) d).trans ?_
    refine Finset.sum_congr rfl fun d' _ => ?_
    rw [shapeCast_self v54]
    refine congrArg (· * v54 (ix2 d' d)) ?_
    -- the third layer at (row b l, d')
    refine (truncf_apply (φ := .f32) (ψ := .bf16) _ _ _).trans ?_
    refine (relu_apply _ _).trans ?_
    unfold natH1
    refine congrArg (max · 0) ?_
    refine (addf_apply _ _ _).trans ?_
    refine congrArg₂ (· + ·) ?_ (biasRow_apply v40 (row b l) d')
    refine (addf_apply _ _ _).trans ?_
    refine congrArg₂ (· + ·) ?_ ?_
    · refine (matmulA_apply _ _ (row b l) d').trans ?_
      refine Finset.sum_congr rfl fun e _ => ?_
      rw [shapeCast_self v36]
      rfl
    · refine (userRow_apply _ b l d').trans ?_
      refine (matmulB_apply _ _ b d').trans ?_
      refine Finset.sum_congr rfl fun e _ => ?_
      rw [shapeCast_self v38]
  · -- the score bias, one number repeated over the 6400 rows
    rw [shapeCast_self v65]
    refine broadcastTo_apply v65 _ (ix2 (row b l) (0 : Fin 1)) (ix2 (0 : Fin 1) (0 : Fin 1)) fun a => ?_
    match a with
    | ⟨0, _⟩ => rfl
    | ⟨1, _⟩ => rfl

/-! ### The row maximum -/

/-- The f32 pattern of `-∞` is `⊥`. -/
private theorem ofBits_negInf_f32 : Ideal.ofBits .f32 0xFF800000#32 = ⊥ := by simp [Ideal.ofBits, Ideal.ieee]

/-- A maximum over axis 1 of a `[32, 200]` array, at row `b`: the largest of the 200 entries, from `⊥`. -/
private theorem rowMax_apply (src : FVec Ideal S32x200 .f32) (hφ : FKind.Formats .f32)
    (hacc : (0xFF800000#32 : BitVec 32) = FKind.maximumf.neutral .f32 hφ) (b : Fin 32) :
    multiReduction (F := Ideal) .maximumf [1] S32 src 0xFF800000#32 reduces_S32x200_S32 hφ hacc (ix1 b)
      = (Finset.univ : Finset (Fin 200)).fold max ⊥ (fun l' => src (ix2 b l')) := by
  refine (Ideal.multiReduction_maximumf_single src _ reduces_S32x200_S32 hφ hacc (ix1 b)).trans ?_
  have h0 : FloatOps.ofBits (F := Ideal) .f32 0xFF800000#32 = (⊥ : EReal) := ofBits_negInf_f32
  have hf : (src ∘ reduces_S32x200_S32.lift (ix1 b)) = fun l' : Fin 200 => src (ix2 b l') :=
    funext fun l' => congrArg src (funext fun a => by
      match a with
      | ⟨0, _⟩ => rfl
      | ⟨1, _⟩ => rfl)
  rw [h0, hf]
  rfl

/-- The row maximum, broadcast along the row: the payload `k0_pay5` read at `(b, l)` is the largest score of batch row `b`. -/
theorem payM_apply (v33 : FVec Ideal S6400x256 .f32) (v35 : FVec Ideal S32x256 .bf16) (v36 v38 : FVec Ideal S256x256 .bf16)
    (v40 : FVec Ideal S1x256 .f32) (v54 : FVec Ideal S256x256 .bf16) (v56 v64 : FVec Ideal S1x256 .f32)
    (v65 : FVec Ideal S1x1 .f32) (b : Fin 32) (l : Fin 200) :
    k0_pay5 (F := Ideal) v33 v35 v36 v38 v40 v54 v56 v64 v65 (ix2 b l)
      = (Finset.univ : Finset (Fin 200)).fold max ⊥
          (fun l' => k0_pay4 (F := Ideal) v33 v35 v36 v38 v40 v54 v56 v64 v65 (ix2 b l')) := by
  unfold k0_pay5
  -- the column of row maxima repeated along the row reads its one entry of row b
  refine (broadcastTo_apply _ _ (ix2 b l) (ix2 b (0 : Fin 1)) fun a => ?_).trans ?_
  · match a with
    | ⟨0, _⟩ => rfl
    | ⟨1, _⟩ => rfl
  refine (shapeCast_apply _ _ (ix2 b (0 : Fin 1)) (ix1 b) ?_).trans ?_
  · rw [Shape.rowMajor_val_one, Shape.rowMajor_val_two]
    show b.val = b.val * 1 + 0
    omega
  exact rowMax_apply _ _ _ b

end Cert.Agg.Kernel

end
-- ==== Proof.PayOut.lean ====
/-
  The kernel body's result at one element: the softmax-weighted sum over the 200 positions of a batch row.

  With `s` the scores and `mx` the row maxima (both [32, 200]) the weight of position `l` is
  `exp (s − mx)` over the sum of those exponentials along the row, and the result at `(b, k)` is the sum over `l` of
  `o` at history row `(b, l)`, column `k`, times that weight.
-/
import proofs.«416470_j90829968376432_3_alg».proof.Proof.Gen.KernelIdeal.Skeleton
import proofs.«416470_j90829968376432_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Agg.Kernel

open Idealize.ShloMosaic Idealize.ShloMosaic.ValueIdx Cert.KernelIdeal Cert.KernelIdeal.Gen Cert.Agg

/-! ## Layout operations of this payload read at an index -/

section Layout
variable {α : Type}

/-- A column `[a, 1]` broadcast to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `[32, 200]` array cast to `[6400, 1]` reads, at history row `(b, l)`, the operand at `(b, l)`. -/
private theorem shapeCast_rows_apply (x : (⟨2, ![32, 200]⟩ : Shape).Idx → α)
    (h : (⟨2, ![32, 200]⟩ : Shape).ShapeCasts ⟨2, ![6400, 1]⟩) (b : Fin 32) (l : Fin 200) (u : Fin 1) :
    shapeCast ⟨2, ![6400, 1]⟩ x h (ix2 (row b l) u) = x (ix2 b l) :=
  shapeCast_apply x h _ _ (by
    have hu : u.val = 0 := by omega
    rw [Shape.rowMajor_val_two, Shape.rowMajor_val_two]
    show b.val * 200 + l.val = (200 * b.val + l.val) * 1 + u.val
    omega)

/-- The `[6400, 256]` array cast to `[32, 200, 256]` reads, at `(b, l, k)`, the operand at history row `(b, l)`, column `k`. -/
private theorem shapeCast_split_apply (x : (⟨2, ![6400, 256]⟩ : Shape).Idx → α)
    (h : (⟨2, ![6400, 256]⟩ : Shape).ShapeCasts ⟨3, ![32, 200, 256]⟩) (b : Fin 32) (l : Fin 200) (k : Fin 256) :
    shapeCast ⟨3, ![32, 200, 256]⟩ x h (ix3 b l k) = x (ix2 (row b l) k) :=
  shapeCast_apply x h _ _ (by
    rw [Shape.rowMajor_val_two, Shape.rowMajor_val_three]
    show (200 * b.val + l.val) * 256 + k.val = (b.val * 200 + l.val) * 256 + k.val
    omega)

end Layout

/-! ## The two sums along the 200 positions -/

/-- A sum over the middle axis of a `[32, 200, 256]` array, at `(b, k)`: the sum over `l` of the array at `(b, l, k)`. -/
private theorem sum_mid_apply (x : FVec Ideal S32x200x256 .f32) (h : S32x200x256.Reduces [1] S32x256)
    (hφ : FKind.Formats .f32) (hacc : (0x00000000#32 : BitVec 32) = FKind.add.neutral .f32 hφ) (b : Fin 32) (k : Fin 256) :
    multiReduction (F := Ideal) .add [1] S32x256 x 0x00000000#32 h hφ hacc (ix2 b k) = ∑ l : Fin 200, x (ix3 b l k) := by
  refine (Ideal.multiReduction_add_single x _ h hφ hacc (ix2 b k)).trans ?_
  refine Finset.sum_congr rfl fun l _ => congrArg x ?_
  funext c
  match c with
  | ⟨0, _⟩ => rfl
  | ⟨1, _⟩ => rfl
  | ⟨2, _⟩ => rfl

/-- A sum over the rows' positions of a `[32, 200]` array, at `b`: the sum over `l` of the array at `(b, l)`. -/
private theorem sum_row_apply (x : FVec Ideal S32x200 .f32) (h : S32x200.Reduces [1] S32)
    (hφ : FKind.Formats .f32) (hacc : (0x00000000#32 : BitVec 32) = FKind.add.neutral .f32 hφ) (b : Fin 32) :
    multiReduction (F := Ideal) .add [1] S32 x 0x00000000#32 h hφ hacc (ix1 b) = ∑ l : Fin 200, x (ix2 b l) := by
  refine (Ideal.multiReduction_add_single x _ h hφ hacc (ix1 b)).trans ?_
  refine Finset.sum_congr rfl fun l _ => congrArg x ?_
  funext c
  match c with
  | ⟨0, _⟩ => rfl
  | ⟨1, _⟩ => rfl

/-- The stored payload `k0_pay1` read at `(b, k)`. -/
theorem payOut_apply (v33 : FVec Ideal S6400x256 .f32) (v73 v76 : FVec Ideal S32x200 .f32) (b : Fin 32) (k : Fin 256) :
    k0_pay1 (F := Ideal) v33 v73 v76 (ix2 b k)
      = ∑ l : Fin 200, v33 (ix2 (row b l) k)
          * Ideal.div (Ideal.exp (v73 (ix2 b l) - v76 (ix2 b l)))
              (∑ l' : Fin 200, Ideal.exp (v73 (ix2 b l') - v76 (ix2 b l'))) := by
  unfold k0_pay1
  refine (sum_mid_apply _ _ _ _ b k).trans ?_
  refine Finset.sum_congr rfl fun l _ => ?_
  refine (shapeCast_split_apply _ _ b l k).trans ?_
  refine (mulf_apply _ _ _).trans ?_
  refine congrArg (v33 (ix2 (row b l) k) * ·) ?_
  refine (broadcastTo_a1_ab_apply _ _ (row b l) k).trans ?_
  refine (shapeCast_rows_apply _ _ b l 0).trans ?_
  refine (divf_apply _ _ _).trans ?_
  refine congrArg (Ideal.div (Ideal.exp (v73 (ix2 b l) - v76 (ix2 b l)))) ?_
  refine (broadcastTo_a1_ab_apply _ _ b l).trans ?_
  refine (shapeCast_a_a1_apply _ _ b 0).trans ?_
  exact sum_row_apply _ _ _ _ b

end Cert.Agg.Kernel

end
-- ==== Proof.Blocks.lean ====
/-
  The windows' blocks at a grid point, element by element.

  The grid has 64 points. At point `t` the attribute window hands the body history rows `6400 t … 6400 t + 6399` of
  the flattened attribute array, the rating-index window batch rows `32 t … 32 t + 31`, the user window the same batch
  rows; the twelve weight windows hand it their whole arrays at every point; and the output window's block is batch
  rows `32 t … 32 t + 31` of the result.
-/
import proofs.«416470_j90829968376432_3_alg».proof.Proof.Gen.KernelIdeal.Frame
import proofs.«416470_j90829968376432_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.Agg.Kernel

open Idealize.ShloMosaic Idealize.ShloMosaic.TcCoe Idealize.ShloMosaic.ValueIdx Idealize.SL.Sem
open Cert.KernelIdeal Cert.KernelIdeal.Gen Cert.Agg

variable (m : (ℓ : Loc nD τ sig) → Buf (Elt Ideal) ℓ)

/-- Point `t` as a number below 64. -/
abbrev pt (t : Fin cfg0.N) : Fin 64 := Fin.cast N_0 t

/-- The attribute block, the rating-index block and the user block at point `t`, at their literal types. -/
abbrev blkE (c : Dev nD) (t : Fin cfg0.N) : FVec Ideal S6400x256 .bf16 := iblk m c 0 t
abbrev blkH (c : Dev nD) (t : Fin cfg0.N) : IVec S32x200 32 := iblk m c 1 t
abbrev blkU (c : Dev nD) (t : Fin cfg0.N) : FVec Ideal S32x256 .bf16 := iblk m c 2 t
/-- Their arrays as the region finds them. -/
abbrev arrE (c : Dev nD) : FVec Ideal S409600x256 .bf16 := V m c main_v41
abbrev arrH (c : Dev nD) : IVec S2048x200 32 := V m c main_arg2
abbrev arrU (c : Dev nD) : FVec Ideal S2048x256 .bf16 := V m c main_v15

/-- The printed index maps of the four moving windows, decided over the grid: block row `t`, block column 0. -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

/-- The printed index maps of the twelve weight windows, decided over the grid: block `(0, 0)` at every point. -/
theorem idx_fixed : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- History row `(b, l)` of the attribute block at point `t` is history row `6400 t + 200 b + l` of the array. -/
theorem blkE_apply (c : Dev nD) (t : Fin cfg0.N) (b : Fin 32) (l : Fin 200) (d : Fin 256) :
    blkE m c t (ix2 (row b l) d) = arrE m c (ix2 (frow (pt t) b l) d) := by
  obtain ⟨e0, e1, -⟩ := idx_moving t
  show V m c main_v41 (((cfg0.win 0).blk t).view.emb (ix2 (row b l) d)) = V m c main_v41 (ix2 (frow (pt t) b l) d)
  refine congrArg (V m c main_v41) ?_
  funext a; apply Fin.ext
  match a with
  | ⟨0, _⟩ =>
    show win0_0.index t (0 : Fin 2) * 6400 + 1 * (200 * b.val + l.val) = 6400 * t.val + (200 * b.val + l.val)
    omega
  | ⟨1, _⟩ =>
    show win0_0.index t (1 : Fin 2) * 256 + 1 * d.val = d.val
    omega

/-- Batch row `b` of the rating-index block at point `t` is batch row `32 t + b` of the array. -/
theorem blkH_apply (c : Dev nD) (t : Fin cfg0.N) (b : Fin 32) (l : Fin 200) :
    blkH m c t (ix2 b l) = arrH m c (ix2 (brow (pt t) b) l) := by
  obtain ⟨-, -, e0, e1, -⟩ := idx_moving t
  show V m c main_arg2 (((cfg0.win 1).blk t).view.emb (ix2 b l)) = V m c main_arg2 (ix2 (brow (pt t) b) l)
  refine congrArg (V m c main_arg2) ?_
  funext a; apply Fin.ext
  match a with
  | ⟨0, _⟩ =>
    show win0_1.index t (0 : Fin 2) * 32 + 1 * b.val = 32 * t.val + b.val
    omega
  | ⟨1, _⟩ =>
    show win0_1.index t (1 : Fin 2) * 200 + 1 * l.val = l.val
    omega

/-- Batch row `b` of the user block at point `t` is batch row `32 t + b` of the array. -/
theorem blkU_apply (c : Dev nD) (t : Fin cfg0.N) (b : Fin 32) (d : Fin 256) :
    blkU m c t (ix2 b d) = arrU m c (ix2 (brow (pt t) b) d) := by
  obtain ⟨-, -, -, -, e0, e1, -⟩ := idx_moving t
  show V m c main_v15 (((cfg0.win 2).blk t).view.emb (ix2 b d)) = V m c main_v15 (ix2 (brow (pt t) b) d)
  refine congrArg (V m c main_v15) ?_
  funext a; apply Fin.ext
  match a with
  | ⟨0, _⟩ =>
    show win0_2.index t (0 : Fin 2) * 32 + 1 * b.val = 32 * t.val + b.val
    omega
  | ⟨1, _⟩ =>
    show win0_2.index t (1 : Fin 2) * 256 + 1 * d.val = d.val
    omega

/-- Each weight window's block is its whole array, at every point. -/
theorem blk3_eq (c : Dev nD) (t : Fin cfg0.N) : (iblk m c 3 t : FVec Ideal S8x256 .bf16) = V m c main_v35 := by
  have e0 := (idx_fixed t).1
  have e1 := (idx_fixed t).2.1
  funext y
  show V m c main_v35 (((cfg0.win 3).blk t).view.emb y) = V m c main_v35 y
  refine congrArg (V m c main_v35) ?_
  funext a; apply Fin.ext
  match a with
  | ⟨0, _⟩ => show win0_3.index t (0 : Fin 2) * 8 + 1 * (y 0).val = (y 0).val; omega
  | ⟨1, _⟩ => show win0_3.index t (1 : Fin 2) * 256 + 1 * (y 1).val = (y 1).val; omega
theorem blk4_eq (c : Dev nD) (t : Fin cfg0.N) : (iblk m c 4 t : FVec Ideal S256x256 .bf16) = V m c main_v18 := by
  have e0 := (idx_fixed t).2.2.1
  have e1 := (idx_fixed t).2.2.2.1
  funext y
  show V m c main_v18 (((cfg0.win 4).blk t).view.emb y) = V m c main_v18 y
  refine congrArg (V m c main_v18) ?_
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem blk5_eq (c : Dev nD) (t : Fin cfg0.N) : (iblk m c 5 t : FVec Ideal S1x256 .f32) = V m c main_v36 := by
  have e0 := (idx_fixed t).2.2.2.2.1
  have e1 := (idx_fixed t).2.2.2.2.2.1
  funext y
  show V m c main_v36 (((cfg0.win 5).blk t).view.emb y) = V m c main_v36 y
  refine congrArg (V m c main_v36) ?_
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega
theorem blk6_eq (c : Dev nD) (t : Fin cfg0.N) : (iblk m c 6 t : FVec Ideal S256x256 .bf16) = V m c main_v23 := by
  have e0 := (idx_fixed t).2.2.2.2.2.2.1
  have e1 := (idx_fixed t).2.2.2.2.2.2.2.1
  funext y
  show V m c main_v23 (((cfg0.win 6).blk t).view.emb y) = V m c main_v23 y
  refine congrArg (V m c main_v23) ?_
  funext a; apply Fin.ext
  match a with
  | ⟨0, _⟩ => show win0_6.index t (0 : Fin 2) * 256 + 1 * (y 0).val = (y 0).val; omega
  | ⟨1, _⟩ => show win0_6.index t (1 : Fin 2) * 256 + 1 * (y 1).val = (y 1).val; omega
theorem blk7_eq (c : Dev nD) (t : Fin cfg0.N) : (iblk m c 7 t : FVec Ideal S1x256 .f32) = V m c main_v37 := by
  have e0 := (idx_fixed t).2.2.2.2.2.2.2.2.1
  have e1 := (idx_fixed t).2.2.2.2.2.2.2.2.2.1
  funext y
  show V m c main_v37 (((cfg0.win 7).blk t).view.emb y) = V m c main_v37 y
  refine congrArg (V m c main_v37) ?_
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega
theorem blk8_eq (c : Dev nD) (t : Fin cfg0.N) : (iblk m c 8 t : FVec Ideal S256x256 .bf16) = V m c main_v26 := by
  have e0 := (idx_fixed t).2.2.2.2.2.2.2.2.2.2.1
  have e1 := (idx_fixed t).2.2.2.2.2.2.2.2.2.2.2.1
  funext y
  show V m c main_v26 (((cfg0.win 8).blk t).view.emb y) = V m c main_v26 y
  refine congrArg (V m c main_v26) ?_
  funext a; apply Fin.ext
  match a with
  | ⟨0, _⟩ => show win0_8.index t (0 : Fin 2) * 256 + 1 * (y 0).val = (y 0).val; omega
  | ⟨1, _⟩ => show win0_8.index t (1 : Fin 2) * 256 + 1 * (y 1).val = (y 1).val; omega
theorem blk9_eq (c : Dev nD) (t : Fin cfg0.N) : (iblk m c 9 t : FVec Ideal S256x256 .bf16) = V m c main_v29 := by
  have e0 := (idx_fixed t).2.2.2.2.2.2.2.2.2.2.2.2.1
  have e1 := (idx_fixed t).2.2.2.2.2.2.2.2.2.2.2.2.2.1
  funext y
  show V m c main_v29 (((cfg0.win 9).blk t).view.emb y) = V m c main_v29 y
  refine congrArg (V m c main_v29) ?_
  funext a; apply Fin.ext
  match a with
  | ⟨0, _⟩ => show win0_9.index t (0 : Fin 2) * 256 + 1 * (y 0).val = (y 0).val; omega
  | ⟨1, _⟩ => show win0_9.index t (1 : Fin 2) * 256 + 1 * (y 1).val = (y 1).val; omega
theorem blk10_eq (c : Dev nD) (t : Fin cfg0.N) : (iblk m c 10 t : FVec Ideal S1x256 .f32) = V m c main_v38 := by
  have e0 := (idx_fixed t).2.2.2.2.2.2.2.2.2.2.2.2.2.2.1
  have e1 := (idx_fixed t).2.2.2.2.2.2.2.2.2.2.2.2.2.2.2.1
  funext y
  show V m c main_v38 (((cfg0.win 10).blk t).view.emb y) = V m c main_v38 y
  refine congrArg (V m c main_v38) ?_
  funext a; apply Fin.ext
  match a with
  | ⟨0, _⟩ => show win0_10.index t (0 : Fin 2) * 1 + 1 * (y 0).val = (y 0).val; omega
  | ⟨1, _⟩ => show win0_10.index t (1 : Fin 2) * 256 + 1 * (y 1).val = (y 1).val; omega
theorem blk11_eq (c : Dev nD) (t : Fin cfg0.N) : (iblk m c 11 t : FVec Ideal S256x256 .bf16) = V m c main_v31 := by
  have e0 := (idx_fixed t).2.2.2.2.2.2.2.2.2.2.2.2.2.2.2.2.1
  have e1 := (idx_fixed t).2.2.2.2.2.2.2.2.2.2.2.2.2.2.2.2.2.1
  funext y
  show V m c main_v31 (((cfg0.win 11).blk t).view.emb y) = V m c main_v31 y
  refine congrArg (V m c main_v31) ?_
  funext a; apply Fin.ext
  match a with
  | ⟨0, _⟩ => show win0_11.index t (0 : Fin 2) * 256 + 1 * (y 0).val = (y 0).val; omega
  | ⟨1, _⟩ => show win0_11.index t (1 : Fin 2) * 256 + 1 * (y 1).val = (y 1).val; omega
theorem blk12_eq (c : Dev nD) (t : Fin cfg0.N) : (iblk m c 12 t : FVec Ideal S1x256 .f32) = V m c main_v39 := by
  have e0 := (idx_fixed t).2.2.2.2.2.2.2.2.2.2.2.2.2.2.2.2.2.2.1
  have e1 := (idx_fixed t).2.2.2.2.2.2.2.2.2.2.2.2.2.2.2.2.2.2.2.1
  funext y
  show V m c main_v39 (((cfg0.win 12).blk t).view.emb y) = V m c main_v39 y
  refine congrArg (V m c main_v39) ?_
  funext a; apply Fin.ext
  match a with
  | ⟨0, _⟩ => show win0_12.index t (0 : Fin 2) * 1 + 1 * (y 0).val = (y 0).val; omega
  | ⟨1, _⟩ => show win0_12.index t (1 : Fin 2) * 256 + 1 * (y 1).val = (y 1).val; omega
theorem blk13_eq (c : Dev nD) (t : Fin cfg0.N) : (iblk m c 13 t : FVec Ideal S1x256 .f32) = V m c main_arg15 := by
  have e0 := (idx_fixed t).2.2.2.2.2.2.2.2.2.2.2.2.2.2.2.2.2.2.2.2.1
  have e1 := (idx_fixed t).2.2.2.2.2.2.2.2.2.2.2.2.2.2.2.2.2.2.2.2.2.1
  funext y
  show V m c main_arg15 (((cfg0.win 13).blk t).view.emb y) = V m c main_arg15 y
  refine congrArg (V m c main_arg15) ?_
  funext a; apply Fin.ext
  match a with
  | ⟨0, _⟩ => show win0_13.index t (0 : Fin 2) * 1 + 1 * (y 0).val = (y 0).val; omega
  | ⟨1, _⟩ => show win0_13.index t (1 : Fin 2) * 256 + 1 * (y 1).val = (y 1).val; omega
theorem blk14_eq (c : Dev nD) (t : Fin cfg0.N) : (iblk m c 14 t : FVec Ideal S1x1 .f32) = V m c main_v40 := by
  have e0 := (idx_fixed t).2.2.2.2.2.2.2.2.2.2.2.2.2.2.2.2.2.2.2.2.2.2.1
  have e1 := (idx_fixed t).2.2.2.2.2.2.2.2.2.2.2.2.2.2.2.2.2.2.2.2.2.2.2
  funext y
  show V m c main_v40 (((cfg0.win 14).blk t).view.emb y) = V m c main_v40 y
  refine congrArg (V m c main_v40) ?_
  funext a; apply Fin.ext
  match a with
  | ⟨0, _⟩ => show win0_14.index t (0 : Fin 2) * 1 + 1 * (y 0).val = (y 0).val; omega
  | ⟨1, _⟩ => show win0_14.index t (1 : Fin 2) * 1 + 1 * (y 1).val = (y 1).val; omega

/-- Reading an array through the output window's block at point `t`: local batch row `b` is batch row `32 t + b`. -/
theorem read_blk15 (G : S2048x256.Idx → EReal) (t : Fin cfg0.N) (b : Fin 32) (k : Fin 256) :
    (((cfg0.win 15).blk t).view.read (Elt Ideal) G : S32x256.Idx → EReal) (ix2 b k) = G (ix2 (brow (pt t) b) k) := by
  obtain ⟨-, -, -, -, -, -, e0, e1⟩ := idx_moving t
  show G (((cfg0.win 15).blk t).view.emb (ix2 b k)) = G (ix2 (brow (pt t) b) k)
  refine congrArg G ?_
  funext a; apply Fin.ext
  match a with
  | ⟨0, _⟩ =>
    show win0_15.index t (0 : Fin 2) * 32 + 1 * b.val = 32 * t.val + b.val
    omega
  | ⟨1, _⟩ =>
    show win0_15.index t (1 : Fin 2) * 256 + 1 * k.val = k.val
    omega

/-- An index of the result lies in point `t`'s output block exactly when its batch row is one of `32 t … 32 t + 31`. -/
theorem mem_blk15 (t : Fin cfg0.N) (i : S2048x256.Idx) :
    i ∈ ((cfg0.win 15).blk t).view.set ↔ 32 * t.val ≤ (i 0).val ∧ (i 0).val < 32 * t.val + 32 := by
  obtain ⟨-, -, -, -, -, -, e0, e1⟩ := idx_moving t
  have hmem : i ∈ ((cfg0.win 15).blk t).view.set ↔ ∀ a : Fin 2, win0_15.index t a * S32x256.size a ≤ (i a).val ∧ (i a).val < win0_15.index t a * S32x256.size a + S32x256.size a := by
    show i ∈ ((View.whole main_v42).slice (win0_15.rect t)).set ↔ _
    rw [View.set_slice_whole, Rect.mem_set_unit]
    exact Iff.rfl
  rw [hmem]
  have hi1 : (i 1).val < 256 := (i 1).isLt
  constructor
  · intro h
    have b0 : win0_15.index t (0 : Fin 2) * 32 ≤ (i 0).val ∧ (i 0).val < win0_15.index t (0 : Fin 2) * 32 + 32 := h 0
    omega
  · intro h a
    match a with
    | ⟨0, _⟩ => show win0_15.index t (0 : Fin 2) * 32 ≤ (i 0).val ∧ (i 0).val < win0_15.index t (0 : Fin 2) * 32 + 32; omega
    | ⟨1, _⟩ => show win0_15.index t (1 : Fin 2) * 256 ≤ (i 1).val ∧ (i 1).val < win0_15.index t (1 : Fin 2) * 256 + 256; omega

end Cert.Agg.Kernel

end
-- ==== Proof.HostArrays.lean ====
/-
  The arrays the region finds, as functions of the program's arguments, element by element.

  Before the region the program gathers the attribute rows and the user rows (an index below zero wraps once, then the
  start is clamped into the table), flattens the attribute rows to 409600 history rows, cuts and transposes the weight
  matrices so that a layer is a plain row-times-matrix product, multiplies the five rating rows by the second half of
  the first weight matrix and pads the product with three zero rows, and writes each bias as a one-row matrix. A
  change of float format is the identity on the extended reals.
-/
import proofs.«416470_j90829968376432_3_alg».proof.Proof.Gen.KernelIdeal.Frame
import proofs.«416470_j90829968376432_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.KernelVsHost

noncomputable section

open scoped BigOperators

namespace Cert.Agg.Kernel

open Idealize.ShloMosaic Idealize.ShloMosaic.TcCoe Idealize.ShloMosaic.ValueIdx Idealize.SL.Sem
open Cert.KernelIdeal Cert.KernelIdeal.Gen Cert.Agg

variable (m : (ℓ : Loc nD τ sig) → Buf (Elt Ideal) ℓ)

/-- The attribute rows: the attribute table gathered at the wrapped indices. -/
def gatherE (x1 : IVec S2048x200 32) (x5 : FVec Ideal S50000x256 .f32) : FVec Ideal S2048x200x256 .f32 :=
  Host.gather gather_S50000x256_S2048x200x1_S2048x200x256_2_0_n_n_0_2_1256 x5
    (broadcastInDim S2048x200x1 ![0, 1] bcast_S2048x200_S2048x200x1_0_1
      (select (cmpi .slt x1 (broadcastInDim S2048x200 ![] bcast_S_S2048x200 (constantI S_ 32 0#32)))
        (addi x1 (broadcastInDim S2048x200 ![] bcast_S_S2048x200 (constantI S_ 32 50000#32))) x1))

/-- The user rows: the user table gathered at the wrapped indices. -/
def gatherU (x0 : IVec S2048 32) (x4 : FVec Ideal S100000x256 .f32) : FVec Ideal S2048x256 .f32 :=
  Host.gather gather_S100000x256_S2048x1_S2048x256_1_0_n_n_0_1_1256 x4
    (broadcastInDim S2048x1 ![0] bcast_S2048_S2048x1_0
      (select (cmpi .slt x0 (broadcastInDim S2048 ![] bcast_S_S2048 (constantI S_ 32 0#32)))
        (addi x0 (broadcastInDim S2048 ![] bcast_S_S2048 (constantI S_ 32 100000#32))) x0))

/-- History row `6400 t + 200 b + l` of the flattened attribute array is attribute row `(32 t + b, l)`. -/
theorem arrE_apply (c : Dev nD) (t : Fin 64) (b : Fin 32) (l : Fin 200) (d : Fin 256) :
    (V m c main_v41 : FVec Ideal S409600x256 .bf16) (ix2 (frow t b l) d)
      = gatherE (m ((c : Thread nD τ).loc main_arg1)) (m ((c : Thread nD τ).loc main_arg5)) (ix3 (brow t b) l d) := by
  -- the array is the flattening of the attribute rows after a change of float format
  have e : (V m c main_v41 : FVec Ideal S409600x256 .bf16)
      = shapeCast S409600x256 (truncf .bf16 (gatherE (m ((c : Thread nD τ).loc main_arg1)) (m ((c : Thread nD τ).loc main_arg5))) bitsLt_bf16_f32)
          shapeCasts_S2048x200x256_S409600x256 := by
    dsimp only [V]
    simp only [hostOps0, hostOps0_1, hostOps0_2, List.flatten_cons, List.flatten_nil, List.append_nil, List.cons_append, List.nil_append]
    after_results_simp
    rfl
  rw [e]
  -- row-major: 256 (6400 t + 200 b + l) + d = 200 · 256 (32 t + b) + 256 l + d
  refine (shapeCast_apply _ _ (ix2 (frow t b l) d) (ix3 (brow t b) l d) ?_).trans ?_
  · rw [Shape.rowMajor_val_three, Shape.rowMajor_val_two]
    show ((32 * t.val + b.val) * 200 + l.val) * 256 + d.val = (6400 * t.val + (200 * b.val + l.val)) * 256 + d.val
    omega
  · exact truncf_apply _ _ _

/-- The rating indices are the argument itself. -/
theorem arrH_eq (c : Dev nD) : (V m c main_arg2 : IVec S2048x200 32) = m ((c : Thread nD τ).loc main_arg2) := by
  exact V_main_arg2 m c

/-- The user array is the gathered user rows. -/
theorem arrU_eq (c : Dev nD) :
    (V m c main_v15 : FVec Ideal S2048x256 .bf16)
      = gatherU (m ((c : Thread nD τ).loc main_arg0)) (m ((c : Thread nD τ).loc main_arg4)) := by
  have e : (V m c main_v15 : FVec Ideal S2048x256 .bf16)
      = truncf .bf16 (gatherU (m ((c : Thread nD τ).loc main_arg0)) (m ((c : Thread nD τ).loc main_arg4))) bitsLt_bf16_f32 := by
    dsimp only [V]
    simp only [hostOps0, hostOps0_1, hostOps0_2, List.flatten_cons, List.flatten_nil, List.append_nil, List.cons_append, List.nil_append]
    after_results_simp
    rfl
  rw [e]
  funext i
  exact truncf_apply _ _ i

/-- The projected rating table: row `j < 5` is rating row `j` against the second half of the first weight matrix; rows 5, 6, 7 are zero. -/
abbrev argR (c : Dev nD) : FVec Ideal S5x256 .f32 := m ((c : Thread nD τ).loc main_arg6)
abbrev argW1 (c : Dev nD) : FVec Ideal S256x512 .f32 := m ((c : Thread nD τ).loc main_arg7)
abbrev arrP (c : Dev nD) : FVec Ideal S8x256 .bf16 := V m c main_v35

/-- Axis 0 of the left operand's index is the output row. -/
private theorem lhsP_0 (i : S5x256.Idx) (q : dot_S5x256_S256x256_S5x256_1_0_0_1_n_n.contr.Idx) :
    (dot_S5x256_S256x256_S5x256_1_0_0_1_n_n.lhsIdx i q 0).val = (i 0).val := by
  unfold DotDims.lhsIdx
  rw [dif_neg (show ¬(0 : Fin S5x256.rank) ∈ dot_S5x256_S256x256_S5x256_1_0_0_1_n_n.lhsBatch by decide), dif_pos (show (0 : Fin S5x256.rank) ∈ dot_S5x256_S256x256_S5x256_1_0_0_1_n_n.lhsNonContracting by decide)]
  rfl
/-- Axis 1 of the left operand's index is the contraction position. -/
private theorem lhsP_1 (i : S5x256.Idx) (q : dot_S5x256_S256x256_S5x256_1_0_0_1_n_n.contr.Idx) :
    (dot_S5x256_S256x256_S5x256_1_0_0_1_n_n.lhsIdx i q 1).val = (q ⟨0, by decide⟩).val :=
  dot_S5x256_S256x256_S5x256_1_0_0_1_n_n.lhsIdx_val_of_single rfl i q
/-- Axis 0 of the right operand's index is the contraction position. -/
private theorem rhsP_0 (i : S5x256.Idx) (q : dot_S5x256_S256x256_S5x256_1_0_0_1_n_n.contr.Idx) :
    (dot_S5x256_S256x256_S5x256_1_0_0_1_n_n.rhsIdx i q 0).val = (q ⟨0, by decide⟩).val :=
  dot_S5x256_S256x256_S5x256_1_0_0_1_n_n.rhsIdx_val_of_single rfl i q
/-- Axis 1 of the right operand's index is the output column. -/
private theorem rhsP_1 (i : S5x256.Idx) (q : dot_S5x256_S256x256_S5x256_1_0_0_1_n_n.contr.Idx) :
    (dot_S5x256_S256x256_S5x256_1_0_0_1_n_n.rhsIdx i q 1).val = (i 1).val := by
  unfold DotDims.rhsIdx
  rw [dif_neg (show ¬(1 : Fin S256x256.rank) ∈ dot_S5x256_S256x256_S5x256_1_0_0_1_n_n.rhsBatch by decide), dif_pos (show (1 : Fin S256x256.rank) ∈ dot_S5x256_S256x256_S5x256_1_0_0_1_n_n.rhsNonContracting by decide)]
  rfl

/-- The product of a five-row matrix with the transposed second half of a 512-column matrix, read at an index. -/
private theorem dotP_apply (R : FVec Ideal S5x256 .f32) (W : FVec Ideal S256x512 .f32) (r : Fin 5) (k : Fin 256) :
    (Host.dotGeneral dot_S5x256_S256x256_S5x256_1_0_0_1_n_n none
        (truncf .bf16 R bitsLt_bf16_f32)
        (truncf .bf16 (transpose S256x256 [1, 0] (extractStridedSlice S256x256 ![0, 256] W slices_S256x512_S256x256_0_256)
          transposes_S256x256_S256x256_1_0) bitsLt_bf16_f32) : FVec Ideal S5x256 .f32) (ix2 r k)
      = ∑ d : Fin 256, R (ix2 r d) * W (ix2 k (hi256 d)) := by
  simp only [Host.dotGeneral]
  rw [Ideal.dotGeneral_apply, ← Equiv.sum_comp (contrEquiv1 dot_S5x256_S256x256_S5x256_1_0_0_1_n_n 256 rfl rfl).symm]
  refine Finset.sum_congr rfl fun d _ => ?_
  have hk := contrEquiv1_symm_val dot_S5x256_S256x256_S5x256_1_0_0_1_n_n 256 rfl rfl d
  have el : dot_S5x256_S256x256_S5x256_1_0_0_1_n_n.lhsIdx (ix2 r k) ((contrEquiv1 dot_S5x256_S256x256_S5x256_1_0_0_1_n_n 256 rfl rfl).symm d) = ix2 r d := funext fun a => Fin.ext (by
    match a with
    | ⟨0, _⟩ => exact lhsP_0 _ _
    | ⟨1, _⟩ => exact (lhsP_1 _ _).trans hk)
  have er : dot_S5x256_S256x256_S5x256_1_0_0_1_n_n.rhsIdx (ix2 r k) ((contrEquiv1 dot_S5x256_S256x256_S5x256_1_0_0_1_n_n 256 rfl rfl).symm d) = ix2 d k := funext fun a => Fin.ext (by
    match a with
    | ⟨0, _⟩ => exact (rhsP_0 _ _).trans hk
    | ⟨1, _⟩ => exact rhsP_1 _ _)
  rw [el, er]
  refine congrArg₂ (· * ·) (truncf_apply (ψ := .bf16) R bitsLt_bf16_f32 _) ?_
  refine (truncf_apply (ψ := .bf16) _ bitsLt_bf16_f32 _).trans ?_
  refine (transpose_apply _ _ transposes_S256x256_S256x256_1_0 (ix2 d k) (ix2 k d) ?_).trans ?_
  · intro b
    match b with
    | ⟨0, _⟩ => rfl
    | ⟨1, _⟩ => rfl
  · refine extractStridedSlice_apply _ _ slices_S256x512_S256x256_0_256 (ix2 k d) (ix2 k (hi256 d)) ?_
    intro a
    match a with
    | ⟨0, _⟩ => show k.val = 0 + k.val; omega
    | ⟨1, _⟩ => show 256 + d.val = 256 + d.val; rfl

theorem arrP_apply (c : Dev nD) (j : Fin 8) (k : Fin 256) :
    arrP m c (ix2 j k)
      = if h : j.val < 5 then
          ∑ d : Fin 256, argR m c (ix2 (⟨j.val, h⟩ : Fin 5) d) * argW1 m c (ix2 k (hi256 d))
        else 0 := by
  have e : arrP m c
      = (pad S8x256 ![0, 0] ![3, 0] ![0, 0]
          (truncf .bf16 (Host.dotGeneral dot_S5x256_S256x256_S5x256_1_0_0_1_n_n none
              (truncf .bf16 (argR m c) bitsLt_bf16_f32)
              (truncf .bf16 (transpose S256x256 [1, 0] (extractStridedSlice S256x256 ![0, 256] (argW1 m c) slices_S256x512_S256x256_0_256)
                transposes_S256x256_S256x256_1_0) bitsLt_bf16_f32)) bitsLt_bf16_f32)
          (sitofp .bf16 (constantI S_ 32 0#32)) pads_S5x256_S8x256_030_000 h_S_ : FVec Ideal S8x256 .bf16) := by
    dsimp only [arrP, V]
    simp only [hostOps0, hostOps0_1, hostOps0_2, List.flatten_cons, List.flatten_nil, List.append_nil, List.cons_append, List.nil_append]
    after_results_simp
    rfl
  rw [e]
  by_cases h : j.val < 5
  · rw [dif_pos h]
    refine (pad_apply_of_inside _ _ _ _ _ pads_S5x256_S8x256_030_000 h_S_ (ix2 j k) (ix2 (⟨j.val, h⟩ : Fin 5) k) ?_).trans ?_
    · intro a
      match a with
      | ⟨0, _⟩ => show j.val = 0 + j.val * (0 + 1); omega
      | ⟨1, _⟩ => show k.val = 0 + k.val * (0 + 1); omega
    · exact (truncf_apply (ψ := .bf16) _ bitsLt_bf16_f32 _).trans (dotP_apply _ _ _ _)
  · rw [dif_neg h]
    refine (pad_apply_of_not_inside _ _ _ _ _ pads_S5x256_S8x256_030_000 h_S_ (ix2 j k) (0 : Fin 2) ?_).trans ?_
    · show ¬(0 ≤ j.val ∧ (j.val - 0) % (0 + 1) = 0 ∧ (j.val - 0) / (0 + 1) < 5)
      omega
    · exact sitofp_zero

end Cert.Agg.Kernel

end
-- ==== Proof.HostWeights.lean ====
/-
  The weight arrays the region finds, as functions of the program's arguments, element by element: each matrix is cut
  to its 256 columns (first or second half) and transposed, so that entry `(d, k)` of the array is entry `(k, d)` (or
  `(k, 256 + d)`) of the argument; each bias vector is written as a one-row matrix. A change of float format is the
  identity on the extended reals.
-/
import proofs.«416470_j90829968376432_3_alg».proof.Proof.Gen.KernelIdeal.Frame
import proofs.«416470_j90829968376432_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.Agg.Kernel

open Idealize.ShloMosaic Idealize.ShloMosaic.TcCoe Idealize.ShloMosaic.ValueIdx Idealize.SL.Sem
open Cert.KernelIdeal Cert.KernelIdeal.Gen Cert.Agg

variable (m : (ℓ : Loc nD τ sig) → Buf (Elt Ideal) ℓ)

/-- A matrix cut to 256 columns from column `o`, transposed, and narrowed: entry `(d, k)` is the operand's entry
    `(k, o + d)`. -/
private theorem cutT_apply (o : Nat) (x : FVec Ideal S256x512 .f32)
    (h : S256x512.Slices ![0, o] S256x256) (h' : S256x256.Transposes [1, 0] S256x256)
    (d k : Fin 256) (j : Fin 512) (hj : j.val = o + d.val) :
    (truncf .bf16 (transpose S256x256 [1, 0] (extractStridedSlice S256x256 ![0, o] x h) h') bitsLt_bf16_f32
        : FVec Ideal S256x256 .bf16) (ix2 d k) = x (ix2 k j) :=
  (truncf_apply (transpose S256x256 [1, 0] (extractStridedSlice S256x256 ![0, o] x h) h') bitsLt_bf16_f32 (ix2 d k)).trans
    ((transpose_ix2_apply (extractStridedSlice S256x256 ![0, o] x h) h' d k).trans (slice2_axis1_apply o x h k d j hj))

/-- A square matrix transposed and narrowed: entry `(d, k)` is the operand's entry `(k, d)`. -/
private theorem sqT_apply (x : FVec Ideal S256x256 .f32) (h' : S256x256.Transposes [1, 0] S256x256) (d k : Fin 256) :
    (truncf .bf16 (transpose S256x256 [1, 0] x h') bitsLt_bf16_f32 : FVec Ideal S256x256 .bf16) (ix2 d k) = x (ix2 k d) :=
  (truncf_apply (transpose S256x256 [1, 0] x h') bitsLt_bf16_f32 (ix2 d k)).trans (transpose_ix2_apply x h' d k)

theorem arrW1a_apply (c : Dev nD) (d k : Fin 256) :
    (V m c main_v18 : FVec Ideal S256x256 .bf16) (ix2 d k)
      = (m ((c : Thread nD τ).loc main_arg7) : FVec Ideal S256x512 .f32) (ix2 k (lo256 d)) := by
  have e : @Eq (FVec Ideal S256x256 .bf16) (V m c main_v18)
      (truncf .bf16 (transpose S256x256 [1, 0] (extractStridedSlice S256x256 ![0, 0]
          (m ((c : Thread nD τ).loc main_arg7) : FVec Ideal S256x512 .f32) slices_S256x512_S256x256_0_0)
          transposes_S256x256_S256x256_1_0) bitsLt_bf16_f32) := by
    dsimp only [V]
    simp only [hostOps0, hostOps0_1, hostOps0_2, List.flatten_cons, List.flatten_nil, List.append_nil, List.cons_append, List.nil_append]
    after_results
  refine (congrFun e (ix2 d k)).trans ?_
  exact cutT_apply 0 _ _ _ d k (lo256 d) (Nat.zero_add _).symm
theorem arrB1_apply (c : Dev nD) (k : Fin 256) :
    (V m c main_v36 : FVec Ideal S1x256 .f32) (ix2 (0 : Fin 1) k)
      = (m ((c : Thread nD τ).loc main_arg8) : FVec Ideal S256 .f32) (ix1 k) := by
  have e : @Eq (FVec Ideal S1x256 .f32) (V m c main_v36)
      (shapeCast S1x256 (m ((c : Thread nD τ).loc main_arg8) : FVec Ideal S256 .f32) shapeCasts_S256_S1x256) := by
    dsimp only [V]
    simp only [hostOps0, hostOps0_1, hostOps0_2, List.flatten_cons, List.flatten_nil, List.append_nil, List.cons_append, List.nil_append]
    after_results
    rfl
  refine (congrFun e (ix2 (0 : Fin 1) k)).trans ?_
  exact shapeCast_a_1a_apply _ _ (0 : Fin 1) k
theorem arrW2_apply (c : Dev nD) (d k : Fin 256) :
    (V m c main_v23 : FVec Ideal S256x256 .bf16) (ix2 d k)
      = (m ((c : Thread nD τ).loc main_arg9) : FVec Ideal S256x256 .f32) (ix2 k d) := by
  have e : @Eq (FVec Ideal S256x256 .bf16) (V m c main_v23)
      (truncf .bf16 (transpose S256x256 [1, 0] (m ((c : Thread nD τ).loc main_arg9) : FVec Ideal S256x256 .f32)
          transposes_S256x256_S256x256_1_0) bitsLt_bf16_f32) := by
    dsimp only [V]
    simp only [hostOps0, hostOps0_1, hostOps0_2, List.flatten_cons, List.flatten_nil, List.append_nil, List.cons_append, List.nil_append]
    after_results
  refine (congrFun e (ix2 d k)).trans ?_
  exact sqT_apply _ _ d k
theorem arrB2_apply (c : Dev nD) (k : Fin 256) :
    (V m c main_v37 : FVec Ideal S1x256 .f32) (ix2 (0 : Fin 1) k)
      = (m ((c : Thread nD τ).loc main_arg10) : FVec Ideal S256 .f32) (ix1 k) := by
  have e : @Eq (FVec Ideal S1x256 .f32) (V m c main_v37)
      (shapeCast S1x256 (m ((c : Thread nD τ).loc main_arg10) : FVec Ideal S256 .f32) shapeCasts_S256_S1x256) := by
    dsimp only [V]
    simp only [hostOps0, hostOps0_1, hostOps0_2, List.flatten_cons, List.flatten_nil, List.append_nil, List.cons_append, List.nil_append]
    after_results
    rfl
  refine (congrFun e (ix2 (0 : Fin 1) k)).trans ?_
  exact shapeCast_a_1a_apply _ _ (0 : Fin 1) k
theorem arrA1a_apply (c : Dev nD) (d k : Fin 256) :
    (V m c main_v26 : FVec Ideal S256x256 .bf16) (ix2 d k)
      = (m ((c : Thread nD τ).loc main_arg11) : FVec Ideal S256x512 .f32) (ix2 k (lo256 d)) := by
  have e : @Eq (FVec Ideal S256x256 .bf16) (V m c main_v26)
      (truncf .bf16 (transpose S256x256 [1, 0] (extractStridedSlice S256x256 ![0, 0]
          (m ((c : Thread nD τ).loc main_arg11) : FVec Ideal S256x512 .f32) slices_S256x512_S256x256_0_0)
          transposes_S256x256_S256x256_1_0) bitsLt_bf16_f32) := by
    dsimp only [V]
    simp only [hostOps0, hostOps0_1, hostOps0_2, List.flatten_cons, List.flatten_nil, List.append_nil, List.cons_append, List.nil_append]
    after_results
  refine (congrFun e (ix2 d k)).trans ?_
  exact cutT_apply 0 _ _ _ d k (lo256 d) (Nat.zero_add _).symm
theorem arrA1b_apply (c : Dev nD) (d k : Fin 256) :
    (V m c main_v29 : FVec Ideal S256x256 .bf16) (ix2 d k)
      = (m ((c : Thread nD τ).loc main_arg11) : FVec Ideal S256x512 .f32) (ix2 k (hi256 d)) := by
  have e : @Eq (FVec Ideal S256x256 .bf16) (V m c main_v29)
      (truncf .bf16 (transpose S256x256 [1, 0] (extractStridedSlice S256x256 ![0, 256]
          (m ((c : Thread nD τ).loc main_arg11) : FVec Ideal S256x512 .f32) slices_S256x512_S256x256_0_256)
          transposes_S256x256_S256x256_1_0) bitsLt_bf16_f32) := by
    dsimp only [V]
    simp only [hostOps0, hostOps0_1, hostOps0_2, List.flatten_cons, List.flatten_nil, List.append_nil, List.cons_append, List.nil_append]
    after_results
  refine (congrFun e (ix2 d k)).trans ?_
  exact cutT_apply 256 _ _ _ d k (hi256 d) rfl
theorem arrAB1_apply (c : Dev nD) (k : Fin 256) :
    (V m c main_v38 : FVec Ideal S1x256 .f32) (ix2 (0 : Fin 1) k)
      = (m ((c : Thread nD τ).loc main_arg12) : FVec Ideal S256 .f32) (ix1 k) := by
  have e : @Eq (FVec Ideal S1x256 .f32) (V m c main_v38)
      (shapeCast S1x256 (m ((c : Thread nD τ).loc main_arg12) : FVec Ideal S256 .f32) shapeCasts_S256_S1x256) := by
    dsimp only [V]
    simp only [hostOps0, hostOps0_1, hostOps0_2, List.flatten_cons, List.flatten_nil, List.append_nil, List.cons_append, List.nil_append]
    after_results
    rfl
  refine (congrFun e (ix2 (0 : Fin 1) k)).trans ?_
  exact shapeCast_a_1a_apply _ _ (0 : Fin 1) k
theorem arrA2_apply (c : Dev nD) (d k : Fin 256) :
    (V m c main_v31 : FVec Ideal S256x256 .bf16) (ix2 d k)
      = (m ((c : Thread nD τ).loc main_arg13) : FVec Ideal S256x256 .f32) (ix2 k d) := by
  have e : @Eq (FVec Ideal S256x256 .bf16) (V m c main_v31)
      (truncf .bf16 (transpose S256x256 [1, 0] (m ((c : Thread nD τ).loc main_arg13) : FVec Ideal S256x256 .f32)
          transposes_S256x256_S256x256_1_0) bitsLt_bf16_f32) := by
    dsimp only [V]
    simp only [hostOps0, hostOps0_1, hostOps0_2, List.flatten_cons, List.flatten_nil, List.append_nil, List.cons_append, List.nil_append]
    after_results
  refine (congrFun e (ix2 d k)).trans ?_
  exact sqT_apply _ _ d k
theorem arrAB2_apply (c : Dev nD) (k : Fin 256) :
    (V m c main_v39 : FVec Ideal S1x256 .f32) (ix2 (0 : Fin 1) k)
      = (m ((c : Thread nD τ).loc main_arg14) : FVec Ideal S256 .f32) (ix1 k) := by
  have e : @Eq (FVec Ideal S1x256 .f32) (V m c main_v39)
      (shapeCast S1x256 (m ((c : Thread nD τ).loc main_arg14) : FVec Ideal S256 .f32) shapeCasts_S256_S1x256) := by
    dsimp only [V]
    simp only [hostOps0, hostOps0_1, hostOps0_2, List.flatten_cons, List.flatten_nil, List.append_nil, List.cons_append, List.nil_append]
    after_results
    rfl
  refine (congrFun e (ix2 (0 : Fin 1) k)).trans ?_
  exact shapeCast_a_1a_apply _ _ (0 : Fin 1) k
theorem arrA3_eq (c : Dev nD) :
    (V m c main_arg15 : FVec Ideal S1x256 .f32) = m ((c : Thread nD τ).loc main_arg15) := by
  exact V_main_arg15 m c
theorem arrAB3_apply (c : Dev nD) :
    (V m c main_v40 : FVec Ideal S1x1 .f32) (ix2 (0 : Fin 1) (0 : Fin 1))
      = (m ((c : Thread nD τ).loc main_arg16) : FVec Ideal S1 .f32) (ix1 (0 : Fin 1)) := by
  have e : @Eq (FVec Ideal S1x1 .f32) (V m c main_v40)
      (shapeCast S1x1 (m ((c : Thread nD τ).loc main_arg16) : FVec Ideal S1 .f32) shapeCasts_S1_S1x1) := by
    dsimp only [V]
    simp only [hostOps0, hostOps0_1, hostOps0_2, List.flatten_cons, List.flatten_nil, List.append_nil, List.cons_append, List.nil_append]
    after_results
    rfl
  refine (congrFun e (ix2 (0 : Fin 1) (0 : Fin 1))).trans ?_
  exact shapeCast_a_1a_apply _ _ (0 : Fin 1) (0 : Fin 1)

end Cert.Agg.Kernel

end
-- ==== Proof.KernelValue.lean ====
/-
  The kernel's result array is the aggregation of Spec.lean.

  At grid point `t` the body sees batch rows `32 t … 32 t + 31`. Reading its stored value at local row `b`, column `k`,
  layer by layer: the attribute block is the gathered attribute rows of those batch rows, the weight blocks are the
  (cut, transposed) weight matrices, and the indicator row of the rating index against the projected rating table is
  the rating row against the second half of the first weight matrix — the indicator picks one row of the table
  (`sum_indicator`), and that row is a sum of products. So each layer is the specification's layer at batch row
  `32 t + b`, the value stored is `out` there, the 64 blocks tile the result, and the array ends holding `out`.
-/
import proofs.«416470_j90829968376432_3_alg».proof.Proof.Gen.KernelIdeal.Value
import proofs.«416470_j90829968376432_3_alg».proof.Proof.Spec
import proofs.«416470_j90829968376432_3_alg».proof.Proof.PayO
import proofs.«416470_j90829968376432_3_alg».proof.Proof.PayScore
import proofs.«416470_j90829968376432_3_alg».proof.Proof.PayOut
import proofs.«416470_j90829968376432_3_alg».proof.Proof.Blocks
import proofs.«416470_j90829968376432_3_alg».proof.Proof.HostArrays
import proofs.«416470_j90829968376432_3_alg».proof.Proof.HostWeights

noncomputable section

open scoped BigOperators

namespace Cert.Agg.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Agg

variable (m : (ℓ : Loc nD τ sig) → Buf (Elt Ideal) ℓ) (ρ : Dev nD → PrngReg)
variable (Hr : Dev nD → Fin 2048 → Fin 200 → Fin 5)

/-! ## The specification's inputs, read off the launch memory -/

abbrev sE (c : Dev nD) : (⟨3, ![2048, 200, 256]⟩ : Shape).Idx → EReal :=
  gatherE (m ((c : Thread nD τ).loc main_arg1)) (m ((c : Thread nD τ).loc main_arg5))
abbrev sU (c : Dev nD) : (⟨2, ![2048, 256]⟩ : Shape).Idx → EReal :=
  gatherU (m ((c : Thread nD τ).loc main_arg0)) (m ((c : Thread nD τ).loc main_arg4))
abbrev sR (c : Dev nD) : (⟨2, ![5, 256]⟩ : Shape).Idx → EReal := m ((c : Thread nD τ).loc main_arg6)
abbrev sW1 (c : Dev nD) : (⟨2, ![256, 512]⟩ : Shape).Idx → EReal := m ((c : Thread nD τ).loc main_arg7)
abbrev sB1 (c : Dev nD) : (⟨1, ![256]⟩ : Shape).Idx → EReal := m ((c : Thread nD τ).loc main_arg8)
abbrev sW2 (c : Dev nD) : (⟨2, ![256, 256]⟩ : Shape).Idx → EReal := m ((c : Thread nD τ).loc main_arg9)
abbrev sB2 (c : Dev nD) : (⟨1, ![256]⟩ : Shape).Idx → EReal := m ((c : Thread nD τ).loc main_arg10)
abbrev sA1 (c : Dev nD) : (⟨2, ![256, 512]⟩ : Shape).Idx → EReal := m ((c : Thread nD τ).loc main_arg11)
abbrev sAB1 (c : Dev nD) : (⟨1, ![256]⟩ : Shape).Idx → EReal := m ((c : Thread nD τ).loc main_arg12)
abbrev sA2 (c : Dev nD) : (⟨2, ![256, 256]⟩ : Shape).Idx → EReal := m ((c : Thread nD τ).loc main_arg13)
abbrev sAB2 (c : Dev nD) : (⟨1, ![256]⟩ : Shape).Idx → EReal := m ((c : Thread nD τ).loc main_arg14)
abbrev sA3 (c : Dev nD) : (⟨2, ![1, 256]⟩ : Shape).Idx → EReal := m ((c : Thread nD τ).loc main_arg15)
abbrev sAB3 (c : Dev nD) : (⟨1, ![1]⟩ : Shape).Idx → EReal := m ((c : Thread nD τ).loc main_arg16)

/-- The result array: `out` at each batch row and column. -/
def GK (c : Dev nD) : S2048x256.Idx → EReal := fun i =>
  Agg.out (sE m c) (Hr c) (sU m c) (sR m c) (sW1 m c) (sB1 m c) (sW2 m c) (sB2 m c) (sA1 m c) (sAB1 m c) (sA2 m c) (sAB2 m c)
    (sA3 m c) (sAB3 m c) (i 0) (i 1)

/-! ## The weight blocks at their literal types -/

abbrev kb3 (c : Dev nD) (t : Fin cfg0.N) : FVec Ideal S8x256 .bf16 := iblk m c 3 t
abbrev kb4 (c : Dev nD) (t : Fin cfg0.N) : FVec Ideal S256x256 .bf16 := iblk m c 4 t
abbrev kb5 (c : Dev nD) (t : Fin cfg0.N) : FVec Ideal S1x256 .f32 := iblk m c 5 t
abbrev kb6 (c : Dev nD) (t : Fin cfg0.N) : FVec Ideal S256x256 .bf16 := iblk m c 6 t
abbrev kb7 (c : Dev nD) (t : Fin cfg0.N) : FVec Ideal S1x256 .f32 := iblk m c 7 t
abbrev kb8 (c : Dev nD) (t : Fin cfg0.N) : FVec Ideal S256x256 .bf16 := iblk m c 8 t
abbrev kb9 (c : Dev nD) (t : Fin cfg0.N) : FVec Ideal S256x256 .bf16 := iblk m c 9 t
abbrev kb10 (c : Dev nD) (t : Fin cfg0.N) : FVec Ideal S1x256 .f32 := iblk m c 10 t
abbrev kb11 (c : Dev nD) (t : Fin cfg0.N) : FVec Ideal S256x256 .bf16 := iblk m c 11 t
abbrev kb12 (c : Dev nD) (t : Fin cfg0.N) : FVec Ideal S1x256 .f32 := iblk m c 12 t
abbrev kb13 (c : Dev nD) (t : Fin cfg0.N) : FVec Ideal S1x256 .f32 := iblk m c 13 t
abbrev kb14 (c : Dev nD) (t : Fin cfg0.N) : FVec Ideal S1x1 .f32 := iblk m c 14 t

/-! ## The indicator of the rating index -/

/-- Two small numbers are the same 32-bit word exactly when they are the same number. -/
theorem ofNat_eq_iff (j : Fin 8) (h : Fin 5) :
    BitVec.ofNat 32 j.val = BitVec.ofNat 32 h.val ↔ j = (⟨h.val, by omega⟩ : Fin 8) := by
  constructor
  · intro e
    have e' := congrArg BitVec.toNat e
    simp only [BitVec.toNat_ofNat] at e'
    have hj := j.isLt
    have hh := h.isLt
    rw [Nat.mod_eq_of_lt (by omega), Nat.mod_eq_of_lt (by omega)] at e'
    exact Fin.ext e'
  · rintro rfl; rfl

/-- The indicator row of a rating index `h` against an eight-row table picks row `h`. -/
theorem pick_row (w : BitVec 32) (h : Fin 5) (hw : w = BitVec.ofNat 32 h.val) (g : Fin 8 → EReal) :
    ∑ j : Fin 8, (if BitVec.ofNat 32 j.val = w then (1 : EReal) else 0) * g j = g (⟨h.val, by omega⟩ : Fin 8) := by
  subst hw
  rw [← sum_indicator (⟨h.val, by omega⟩ : Fin 8) g]
  exact Finset.sum_congr rfl fun j _ => by rw [if_congr (ofNat_eq_iff j h) rfl rfl]

/-! ## The layers at a grid point -/

section Layers

variable (hHr : ∀ c b l, (m ((c : Thread nD τ).loc main_arg2) : IVec S2048x200 32) (ix2 b l) = BitVec.ofNat 32 (Hr c b l).val)
include hHr

/-- First layer at local row `(b, l)` of point `t`. -/
theorem x1_at (c : Dev nD) (t : Fin cfg0.N) (b : Fin 32) (l : Fin 200) (d : Fin 256) :
    natX1 (blkE m c t) (blkH m c t) (kb3 m c t) (kb4 m c t) (kb5 m c t) b l d
      = Agg.x1 (sE m c) (Hr c) (sR m c) (sW1 m c) (sB1 m c) (brow (pt t) b) l d := by
  unfold natX1 Agg.x1
  have e1 : ∑ d' : Fin 256, blkE m c t (ix2 (row b l) d') * kb4 m c t (ix2 d' d)
      = ∑ d' : Fin 256, sE m c (ix3 (brow (pt t) b) l d') * sW1 m c (ix2 d (lo256 d')) :=
    Finset.sum_congr rfl fun d' _ => by
      rw [blkE_apply m c t b l d', show kb4 m c t = V m c main_v18 from blk4_eq m c t]
      exact congrArg₂ (· * ·) (arrE_apply m c (pt t) b l d') (arrW1a_apply m c d' d)
  have hw : blkH m c t (ix2 b l) = BitVec.ofNat 32 (Hr c (brow (pt t) b) l).val := by
    rw [blkH_apply m c t b l, show arrH m c = m ((c : Thread nD τ).loc main_arg2) from arrH_eq m c]
    exact hHr c (brow (pt t) b) l
  have e2 : ∑ j : Fin 8, (if BitVec.ofNat 32 j.val = blkH m c t (ix2 b l) then (1 : EReal) else 0) * kb3 m c t (ix2 j d)
      = ∑ d' : Fin 256, sR m c (ix2 (Hr c (brow (pt t) b) l) d') * sW1 m c (ix2 d (hi256 d')) := by
    rw [pick_row (blkH m c t (ix2 b l)) (Hr c (brow (pt t) b) l) hw (fun j => kb3 m c t (ix2 j d))]
    show kb3 m c t (ix2 _ d) = _
    rw [show kb3 m c t = arrP m c from blk3_eq m c t, arrP_apply m c _ d, dif_pos (Hr c (brow (pt t) b) l).isLt]
  have e3 : kb5 m c t (ix2 (0 : Fin 1) d) = sB1 m c (ix1 d) := by
    rw [show kb5 m c t = V m c main_v36 from blk5_eq m c t]
    exact arrB1_apply m c d
  rw [e1, e2, e3]

/-- Second layer: the body's `o`. -/
theorem o_at (c : Dev nD) (t : Fin cfg0.N) (b : Fin 32) (l : Fin 200) (k : Fin 256) :
    k0_pay2 (F := Ideal) (blkE m c t) (blkH m c t) (kb3 m c t) (kb4 m c t) (kb5 m c t) (kb6 m c t) (kb7 m c t) (ix2 (row b l) k)
      = Agg.o (sE m c) (Hr c) (sR m c) (sW1 m c) (sB1 m c) (sW2 m c) (sB2 m c) (brow (pt t) b) l k := by
  rw [payO_apply]
  unfold Agg.o
  have e1 : ∑ d : Fin 256, natX1 (blkE m c t) (blkH m c t) (kb3 m c t) (kb4 m c t) (kb5 m c t) b l d * kb6 m c t (ix2 d k)
      = ∑ d : Fin 256, Agg.x1 (sE m c) (Hr c) (sR m c) (sW1 m c) (sB1 m c) (brow (pt t) b) l d * sW2 m c (ix2 k d) :=
    Finset.sum_congr rfl fun d _ => by
      rw [x1_at m Hr hHr c t b l d, show kb6 m c t = V m c main_v23 from blk6_eq m c t]
      exact congrArg (_ * ·) (arrW2_apply m c d k)
  have e2 : kb7 m c t (ix2 (0 : Fin 1) k) = sB2 m c (ix1 k) := by
    rw [show kb7 m c t = V m c main_v37 from blk7_eq m c t]
    exact arrB2_apply m c k
  rw [e1, e2]

/-- The body's `o` as a vector, named. -/
abbrev vO (c : Dev nD) (t : Fin cfg0.N) : FVec Ideal S6400x256 .f32 :=
  k0_pay2 (F := Ideal) (blkE m c t) (blkH m c t) (kb3 m c t) (kb4 m c t) (kb5 m c t) (kb6 m c t) (kb7 m c t)

/-- The user block as the body casts it. -/
abbrev vU (c : Dev nD) (t : Fin cfg0.N) : FVec Ideal S32x256 .bf16 := k0_pay3 (F := Ideal) (blkU m c t)

theorem vU_apply (c : Dev nD) (t : Fin cfg0.N) (b : Fin 32) (d : Fin 256) :
    vU m c t (ix2 b d) = sU m c (ix2 (brow (pt t) b) d) := by
  show k0_pay3 (F := Ideal) (blkU m c t) (ix2 b d) = _
  unfold k0_pay3
  rw [shapeCast_self, blkU_apply m c t b d, show arrU m c = sU m c from arrU_eq m c]

/-- Third layer. -/
theorem h1_at (c : Dev nD) (t : Fin cfg0.N) (b : Fin 32) (l : Fin 200) (d : Fin 256) :
    natH1 (vO m c t) (vU m c t) (kb8 m c t) (kb9 m c t) (kb10 m c t) b l d
      = Agg.h1 (sE m c) (Hr c) (sU m c) (sR m c) (sW1 m c) (sB1 m c) (sW2 m c) (sB2 m c) (sA1 m c) (sAB1 m c) (brow (pt t) b) l d := by
  unfold natH1 Agg.h1
  have e1 : ∑ d' : Fin 256, vO m c t (ix2 (row b l) d') * kb8 m c t (ix2 d' d)
      = ∑ d' : Fin 256, Agg.o (sE m c) (Hr c) (sR m c) (sW1 m c) (sB1 m c) (sW2 m c) (sB2 m c) (brow (pt t) b) l d' * sA1 m c (ix2 d (lo256 d')) :=
    Finset.sum_congr rfl fun d' _ => by
      rw [show vO m c t (ix2 (row b l) d') = _ from o_at m Hr hHr c t b l d', show kb8 m c t = V m c main_v26 from blk8_eq m c t]
      exact congrArg (_ * ·) (arrA1a_apply m c d' d)
  have e2 : ∑ d' : Fin 256, vU m c t (ix2 b d') * kb9 m c t (ix2 d' d)
      = ∑ d' : Fin 256, sU m c (ix2 (brow (pt t) b) d') * sA1 m c (ix2 d (hi256 d')) :=
    Finset.sum_congr rfl fun d' _ => by
      rw [vU_apply m Hr hHr c t b d', show kb9 m c t = V m c main_v29 from blk9_eq m c t]
      exact congrArg (_ * ·) (arrA1b_apply m c d' d)
  have e3 : kb10 m c t (ix2 (0 : Fin 1) d) = sAB1 m c (ix1 d) := by
    rw [show kb10 m c t = V m c main_v38 from blk10_eq m c t]
    exact arrAB1_apply m c d
  rw [e1, e2, e3]

/-- Fourth layer. -/
theorem h2_at (c : Dev nD) (t : Fin cfg0.N) (b : Fin 32) (l : Fin 200) (d : Fin 256) :
    natH2 (vO m c t) (vU m c t) (kb8 m c t) (kb9 m c t) (kb10 m c t) (kb11 m c t) (kb12 m c t) b l d
      = Agg.h2 (sE m c) (Hr c) (sU m c) (sR m c) (sW1 m c) (sB1 m c) (sW2 m c) (sB2 m c) (sA1 m c) (sAB1 m c) (sA2 m c) (sAB2 m c)
          (brow (pt t) b) l d := by
  unfold natH2 Agg.h2
  have e1 : ∑ d' : Fin 256, natH1 (vO m c t) (vU m c t) (kb8 m c t) (kb9 m c t) (kb10 m c t) b l d' * kb11 m c t (ix2 d' d)
      = ∑ d' : Fin 256, Agg.h1 (sE m c) (Hr c) (sU m c) (sR m c) (sW1 m c) (sB1 m c) (sW2 m c) (sB2 m c) (sA1 m c) (sAB1 m c)
          (brow (pt t) b) l d' * sA2 m c (ix2 d d') :=
    Finset.sum_congr rfl fun d' _ => by
      rw [h1_at m Hr hHr c t b l d', show kb11 m c t = V m c main_v31 from blk11_eq m c t]
      exact congrArg (_ * ·) (arrA2_apply m c d' d)
  have e2 : kb12 m c t (ix2 (0 : Fin 1) d) = sAB2 m c (ix1 d) := by
    rw [show kb12 m c t = V m c main_v39 from blk12_eq m c t]
    exact arrAB2_apply m c d
  rw [e1, e2]

/-- The body's scores as a vector, named. -/
abbrev vS (c : Dev nD) (t : Fin cfg0.N) : FVec Ideal S32x200 .f32 :=
  k0_pay4 (F := Ideal) (vO m c t) (vU m c t) (kb8 m c t) (kb9 m c t) (kb10 m c t) (kb11 m c t) (kb12 m c t) (kb13 m c t) (kb14 m c t)

/-- The score. -/
theorem score_at (c : Dev nD) (t : Fin cfg0.N) (b : Fin 32) (l : Fin 200) :
    vS m c t (ix2 b l)
      = Agg.score (sE m c) (Hr c) (sU m c) (sR m c) (sW1 m c) (sB1 m c) (sW2 m c) (sB2 m c) (sA1 m c) (sAB1 m c) (sA2 m c) (sAB2 m c)
          (sA3 m c) (sAB3 m c) (brow (pt t) b) l := by
  show k0_pay4 (F := Ideal) (vO m c t) (vU m c t) (kb8 m c t) (kb9 m c t) (kb10 m c t) (kb11 m c t) (kb12 m c t) (kb13 m c t) (kb14 m c t) (ix2 b l) = _
  rw [payS_apply]
  unfold Agg.score
  have e1 : ∑ d : Fin 256, natH2 (vO m c t) (vU m c t) (kb8 m c t) (kb9 m c t) (kb10 m c t) (kb11 m c t) (kb12 m c t) b l d
        * kb13 m c t (ix2 (0 : Fin 1) d)
      = ∑ d : Fin 256, Agg.h2 (sE m c) (Hr c) (sU m c) (sR m c) (sW1 m c) (sB1 m c) (sW2 m c) (sB2 m c) (sA1 m c) (sAB1 m c) (sA2 m c)
          (sAB2 m c) (brow (pt t) b) l d * sA3 m c (ix2 (0 : Fin 1) d) :=
    Finset.sum_congr rfl fun d _ => by
      rw [h2_at m Hr hHr c t b l d, show kb13 m c t = V m c main_arg15 from blk13_eq m c t,
        show (V m c main_arg15 : FVec Ideal S1x256 .f32) = sA3 m c from arrA3_eq m c]
  have e2 : kb14 m c t (ix2 (0 : Fin 1) (0 : Fin 1)) = sAB3 m c (ix1 (0 : Fin 1)) := by
    rw [show kb14 m c t = V m c main_v40 from blk14_eq m c t]
    exact arrAB3_apply m c
  rw [e1, e2]

/-- The row maximum. -/
theorem smax_at (c : Dev nD) (t : Fin cfg0.N) (b : Fin 32) (l : Fin 200) :
    k0_pay5 (F := Ideal) (vO m c t) (vU m c t) (kb8 m c t) (kb9 m c t) (kb10 m c t) (kb11 m c t) (kb12 m c t) (kb13 m c t) (kb14 m c t) (ix2 b l)
      = Agg.smax (sE m c) (Hr c) (sU m c) (sR m c) (sW1 m c) (sB1 m c) (sW2 m c) (sB2 m c) (sA1 m c) (sAB1 m c) (sA2 m c) (sAB2 m c)
          (sA3 m c) (sAB3 m c) (brow (pt t) b) := by
  rw [payM_apply]
  unfold Agg.smax
  exact congrArg (fun f => (Finset.univ : Finset (Fin 200)).fold max ⊥ f) (funext fun l' => score_at m Hr hHr c t b l')

/-- The stored value at local row `b`, column `k` of point `t` is `out` at batch row `32 t + b`. -/
theorem out_at (c : Dev nD) (t : Fin cfg0.N) (b : Fin 32) (k : Fin 256) :
    k0_pay1 (F := Ideal) (vO m c t) (vS m c t)
        (k0_pay5 (F := Ideal) (vO m c t) (vU m c t) (kb8 m c t) (kb9 m c t) (kb10 m c t) (kb11 m c t) (kb12 m c t) (kb13 m c t) (kb14 m c t))
        (ix2 b k)
      = GK m Hr c (ix2 (brow (pt t) b) k) := by
  rw [payOut_apply]
  show _ = Agg.out (sE m c) (Hr c) (sU m c) (sR m c) (sW1 m c) (sB1 m c) (sW2 m c) (sB2 m c) (sA1 m c) (sAB1 m c) (sA2 m c) (sAB2 m c)
    (sA3 m c) (sAB3 m c) (brow (pt t) b) k
  unfold Agg.out
  have es : ∀ l : Fin 200, vS m c t (ix2 b l)
      - k0_pay5 (F := Ideal) (vO m c t) (vU m c t) (kb8 m c t) (kb9 m c t) (kb10 m c t) (kb11 m c t) (kb12 m c t) (kb13 m c t) (kb14 m c t) (ix2 b l)
      = Agg.score (sE m c) (Hr c) (sU m c) (sR m c) (sW1 m c) (sB1 m c) (sW2 m c) (sB2 m c) (sA1 m c) (sAB1 m c) (sA2 m c) (sAB2 m c)
          (sA3 m c) (sAB3 m c) (brow (pt t) b) l
        - Agg.smax (sE m c) (Hr c) (sU m c) (sR m c) (sW1 m c) (sB1 m c) (sW2 m c) (sB2 m c) (sA1 m c) (sAB1 m c) (sA2 m c) (sAB2 m c)
          (sA3 m c) (sAB3 m c) (brow (pt t) b) := fun l => by
    rw [score_at m Hr hHr c t b l, smax_at m Hr hHr c t b l]
  refine Finset.sum_congr rfl fun l _ => ?_
  rw [show vO m c t (ix2 (row b l) k) = _ from o_at m Hr hHr c t b l k, es l]
  refine congrArg₂ (· * ·) rfl (congrArg (Ideal.div _) ?_)
  exact Finset.sum_congr rfl fun l' _ => by rw [es l']

end Layers

/-! ## From the blocks to the array -/

theorem hz : (![0, 0] : Fin 2 → Nat) = fun _ => 0 := funext fun a => by fin_cases a <;> rfl

/-- What point `t` writes back is block `t` of `GK`. -/
theorem flushed15_eq (hHr : ∀ c b l, (m ((c : Thread nD τ).loc main_arg2) : IVec S2048x200 32) (ix2 b l) = BitVec.ofNat 32 (Hr c b l).val)
    (c : Dev nD) (t : Fin cfg0.N) :
    (dats m 0 c).flushed 15 t = ((cfg0.win 15).blk t).view.read (Elt Ideal) (GK m Hr c) := by
  rw [flushed15]
  unfold out0_15
  rw [View.canon_unit_zero hz]
  simp only [View.ld_unit_zero (S := S6400x256) hz, View.ld_unit_zero (S := S32x200) hz, View.ld_unit_zero (S := S8x256) hz,
    View.ld_unit_zero (S := S256x256) hz, View.ld_unit_zero (S := S1x256) hz, View.ld_unit_zero (S := S32x256) hz,
    View.ld_unit_zero (S := S1x1) hz]
  funext j
  obtain ⟨b, k, rfl⟩ : ∃ (b : Fin 32) (k : Fin 256), j = ix2 b k := ⟨j 0, j 1, eq_ix2 j⟩
  refine Eq.trans ?_ (read_blk15 (GK m Hr c) t b k).symm
  exact out_at m Hr hHr c t b k

/-- Every index of the result lies in some point's block: the one its batch row falls in. -/
theorem cover15 (i : S2048x256.Idx) : ∃ t : Fin cfg0.N, (cfg0.win 15).flush t = true ∧ i ∈ ((cfg0.win 15).blk t).view.set := by
  have hi : (i 0).val < 2048 := idx2_lt0 i
  have hN : cfg0.N = 64 := N_0
  refine ⟨⟨(i 0).val / 32, by rw [hN]; omega⟩, flush0_15 _, ?_⟩
  rw [mem_blk15]
  show 32 * ((i 0).val / 32) ≤ (i 0).val ∧ (i 0).val < 32 * ((i 0).val / 32) + 32
  omega

/-- The result array after the run. -/
theorem final15 (hHr : ∀ c b l, (m ((c : Thread nD τ).loc main_arg2) : IVec S2048x200 32) (ix2 b l) = BitVec.ofNat 32 (Hr c b l).val)
    (c : Dev nD) : (dats m 0 c).arrAt 15 cfg0.N = GK m Hr c :=
  (dats m 0 c).arrAt_eq_of_cover 15 (GK m Hr c) (fun t _ => flushed15_eq m Hr hHr c t) cover15

/-- The kernel's run: the result array at `GK`, the arguments unchanged. -/
theorem run (hHr : ∀ c b l, (m ((c : Thread nD τ).loc main_arg2) : IVec S2048x200 32) (ix2 b l) = BitVec.ofNat 32 (Hr c b l).val) :
    θ_run defs (onTc (τ := τ) (main (F := Ideal))) ⟨m, fun _ => 0, ρ⟩ fun r => ∀ c : Dev nD,
      r.2.mem ((c : Thread nD τ).loc main_v42) = GK m Hr c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final15 m Hr hHr c), (h c).2⟩) (run_blocks m ρ)

end Cert.Agg.Kernel

end
-- ==== Proof.RefOps.lean ====
/-
  The reference's operations that pick elements by value or by coordinate, read at an index.

  The rating rows are gathered from a five-row table at the rating index (an index below zero wraps once, then the start
  is clamped into the table): when the index is one of 0 … 4 the row read is that row. A concatenation along the last
  axis reads its first operand on columns 0 … 255 and its second on columns 256 … 511. The user row is laid along the
  history axis. The largest score of a batch row is a fold of `max` from `⊥` over the 200 positions.
-/
import proofs.«416470_j90829968376432_3_alg».proof.Proof.Gen.ReferenceIdeal.Read
import proofs.«416470_j90829968376432_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Agg.Ref

open Idealize.ShloMosaic Idealize.ShloMosaic.ValueIdx Cert.ReferenceIdeal Cert.ReferenceIdeal.Read Cert.Agg

variable (a0 : (⟨S2048, .i32⟩ : BufTy).Contents (Elt Ideal)) (a1 a2 : (⟨S2048x200, .i32⟩ : BufTy).Contents (Elt Ideal))
  (a4 : (⟨S100000x256, .f32⟩ : BufTy).Contents (Elt Ideal)) (a5 : (⟨S50000x256, .f32⟩ : BufTy).Contents (Elt Ideal))
  (a6 : (⟨S5x256, .f32⟩ : BufTy).Contents (Elt Ideal)) (a7 : (⟨S256x512, .f32⟩ : BufTy).Contents (Elt Ideal))
  (a8 : (⟨S256, .f32⟩ : BufTy).Contents (Elt Ideal)) (a9 : (⟨S256x256, .f32⟩ : BufTy).Contents (Elt Ideal))
  (a10 : (⟨S256, .f32⟩ : BufTy).Contents (Elt Ideal)) (a11 : (⟨S256x512, .f32⟩ : BufTy).Contents (Elt Ideal))
  (a12 : (⟨S256, .f32⟩ : BufTy).Contents (Elt Ideal)) (a13 : (⟨S256x256, .f32⟩ : BufTy).Contents (Elt Ideal))
  (a14 : (⟨S256, .f32⟩ : BufTy).Contents (Elt Ideal)) (a15 : (⟨S1x256, .f32⟩ : BufTy).Contents (Elt Ideal))
  (a16 : (⟨S1, .f32⟩ : BufTy).Contents (Elt Ideal))

/-- The start word at a rating index `h` of 0 … 4: not below zero, so it is kept, and it is inside the table. -/
private theorem start_word (h : Fin 5) :
    min (Scalar.select (IntOp.cmpi .slt (BitVec.ofNat 32 h.val) 0#32) (IntOp.addi (BitVec.ofNat 32 h.val) 5#32)
      (BitVec.ofNat 32 h.val)).toInt.toNat (5 - 1) = h.val := by
  fin_cases h <;> decide

/-- The rating gather's dimension numbers. -/
private abbrev gR : GatherDims S5x256 S2048x200x1 S2048x200x256 :=
  gather_S5x256_S2048x200x1_S2048x200x256_2_0_n_n_0_2_1256

/-- The gathered rating row at `(b, l)` is row `Hr b l` of the table, when the index word there is the number `Hr b l`. -/
theorem gatherR_apply (Hr : Fin 2048 → Fin 200 → Fin 5) (hHr : ∀ b l, a2 (ix2 b l) = BitVec.ofNat 32 (Hr b l).val)
    (b : Fin 2048) (l : Fin 200) (d : Fin 256) :
    val_main_v13 (F := Ideal) a2 a6 (ix3 b l d) = a6 (ix2 (Hr b l) d) := by
  unfold val_main_v13 Host.gather
  refine congrArg a6 (funext fun a => Fin.ext ?_)
  have hnb : ∀ a : Fin 2, a ∉ gR.operandBatchingDims := fun a => List.not_mem_nil
  match a with
  | ⟨0, _⟩ =>
    -- the collapsed axis: the clamped start index, no batching, no offset
    show gR.start (ix3 b l d) (val_main_v12 (F := Ideal) a2) 0 + gR.batchCoord (ix3 b l d) 0 + gR.offCoord (ix3 b l d) 0
      = (Hr b l).val
    rw [GatherDims.batchCoord_eq_zero _ _ _ (hnb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gR.startIndexMap from List.mem_singleton.mpr rfl)]
    have hsi : gR.siIdx (ix3 b l d) ⟨List.idxOf (0 : Fin 2) gR.startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi, val_main_v12_apply]
    have hix : idx_main_v12 (ix3 b l (0 : Fin 1)) = ix2 b l :=
      funext fun c => Fin.ext (by match c with | ⟨0, _⟩ => rfl | ⟨1, _⟩ => rfl)
    rw [hix]
    show min (Scalar.select (IntOp.cmpi .slt (a2 (ix2 b l)) 0#32) (IntOp.addi (a2 (ix2 b l)) 5#32) (a2 (ix2 b l))).toInt.toNat
      (5 - 1) = (Hr b l).val
    rw [hHr b l]
    exact start_word (Hr b l)
  | ⟨1, _⟩ =>
    -- the offset axis: no start index, no batching, the result's last coordinate
    show gR.start (ix3 b l d) (val_main_v12 (F := Ideal) a2) 1 + gR.batchCoord (ix3 b l d) 1 + gR.offCoord (ix3 b l d) 1
      = d.val
    rw [GatherDims.batchCoord_eq_zero _ _ _ (hnb 1)]
    unfold GatherDims.start
    rw [dif_neg (show (1 : Fin 2) ∉ gR.startIndexMap by decide)]
    unfold GatherDims.offCoord
    rw [dif_pos (show (1 : Fin 2) ∈ gR.sKept by decide), Nat.zero_add]
    rfl

/-- The first layer's input: the attribute row on the first 256 columns … -/
theorem cat21_lo (b : Fin 2048) (l : Fin 200) (d : Fin 256) :
    val_main_v21 (F := Ideal) a1 a2 a5 a6 (ix3 b l (lo256 d)) = val_main_v6 (F := Ideal) a1 a5 (ix3 b l d) := by
  unfold val_main_v21
  exact concatenate_pair_apply_left (t := S2048x200x512) (s₁ := S2048x200x256) (s₂ := S2048x200x256) (2 : Fin 3) _ _ _
    (ix3 b l (lo256 d)) rfl (ix3 b l d)
    (fun a => by match a with | ⟨0, _⟩ => rfl | ⟨1, _⟩ => rfl | ⟨2, _⟩ => rfl)
/-- … and the rating row on the last 256. -/
theorem cat21_hi (b : Fin 2048) (l : Fin 200) (d : Fin 256) :
    val_main_v21 (F := Ideal) a1 a2 a5 a6 (ix3 b l (hi256 d)) = val_main_v13 (F := Ideal) a2 a6 (ix3 b l d) := by
  unfold val_main_v21
  exact concatenate_pair_apply_right (t := S2048x200x512) (s₁ := S2048x200x256) (s₂ := S2048x200x256) (2 : Fin 3) _ _ _
    (ix3 b l (hi256 d)) rfl rfl (ix3 b l d)
    (fun a => by match a with | ⟨0, _⟩ => intro _; rfl | ⟨1, _⟩ => intro _; rfl | ⟨2, _⟩ => intro h; exact absurd rfl h)
    (by show d.val + 256 = 256 + d.val; omega)

/-- The third layer's input: the second layer's output on the first 256 columns … -/
theorem cat34_lo (b : Fin 2048) (l : Fin 200) (d : Fin 256) :
    val_main_v34 (F := Ideal) a0 a1 a2 a4 a5 a6 a7 a8 a9 a10 (ix3 b l (lo256 d))
      = val_main_v31 (F := Ideal) a1 a2 a5 a6 a7 a8 a9 a10 (ix3 b l d) := by
  unfold val_main_v34
  generalize val_main_v31 (F := Ideal) a1 a2 a5 a6 a7 a8 a9 a10 = y
  exact concatenate_pair_apply_left (t := S2048x200x512) (s₁ := S2048x200x256) (s₂ := S2048x200x256) (2 : Fin 3) _ _ _
    (ix3 b l (lo256 d)) rfl (ix3 b l d)
    (fun a => by match a with | ⟨0, _⟩ => rfl | ⟨1, _⟩ => rfl | ⟨2, _⟩ => rfl)
/-- … and the user row, the same at every position, on the last 256. -/
theorem cat34_hi (b : Fin 2048) (l : Fin 200) (d : Fin 256) :
    val_main_v34 (F := Ideal) a0 a1 a2 a4 a5 a6 a7 a8 a9 a10 (ix3 b l (hi256 d))
      = val_main_v20 (F := Ideal) a0 a4 (ix2 b d) := by
  unfold val_main_v34
  generalize val_main_v31 (F := Ideal) a1 a2 a5 a6 a7 a8 a9 a10 = y
  refine (concatenate_pair_apply_right (t := S2048x200x512) (s₁ := S2048x200x256) (s₂ := S2048x200x256) (2 : Fin 3) _ _ _
    (ix3 b l (hi256 d)) rfl rfl (ix3 b l d)
    (fun a => by match a with | ⟨0, _⟩ => intro _; rfl | ⟨1, _⟩ => intro _; rfl | ⟨2, _⟩ => intro h; exact absurd rfl h)
    (by show d.val + 256 = 256 + d.val; omega)).trans ?_
  rw [val_main_v33_apply, val_main_v32_apply]
  exact congrArg (val_main_v20 (F := Ideal) a0 a4)
    (funext fun a => Fin.ext (by match a with | ⟨0, _⟩ => rfl | ⟨1, _⟩ => rfl))

/-- The word of minus infinity reads as the least extended real. -/
private theorem ofBits_neg_inf_f32 : Ideal.ofBits .f32 0xFF800000#32 = ⊥ := by simp [Ideal.ofBits, Ideal.ieee]

/-- The largest score of batch row `b`: the fold of `max` from `⊥` over the positions. -/
theorem redmax_apply (b : Fin 2048) :
    val_main_v49 (F := Ideal) a0 a1 a2 a4 a5 a6 a7 a8 a9 a10 a11 a12 a13 a14 a15 a16 (ix2 b (0 : Fin 1))
      = (Finset.univ : Finset (Fin 200)).fold max ⊥
          (fun l => val_main_v48 (F := Ideal) a0 a1 a2 a4 a5 a6 a7 a8 a9 a10 a11 a12 a13 a14 a15 a16 (ix3 b l (0 : Fin 1))) := by
  unfold val_main_v49
  generalize val_main_v48 (F := Ideal) a0 a1 a2 a4 a5 a6 a7 a8 a9 a10 a11 a12 a13 a14 a15 a16 = y
  have hred : S2048x200x1.Reduces [(1 : Fin 3)] S2048x1 := by decide
  refine (Host.reduce_eq_fold_single (s := S2048x200x1) (t := S2048x1) (a := (1 : Fin 3)) (FloatOps.maximumf (F := Ideal) (φ := .f32)) y
    (val_main_cst (F := Ideal)) _ hred _ (ix2 b (0 : Fin 1))).trans ?_
  show (Finset.univ : Finset (Fin 200)).fold max (Ideal.ofBits .f32 0xFF800000#32) (fun l => y (hred.lift (ix2 b (0 : Fin 1)) l)) = _
  rw [ofBits_neg_inf_f32]
  refine congrArg (fun f => (Finset.univ : Finset (Fin 200)).fold max ⊥ f) (funext fun l => congrArg y (funext fun a => Fin.ext ?_))
  match a with
  | ⟨0, _⟩ => rfl
  | ⟨1, _⟩ => rfl
  | ⟨2, _⟩ => rfl

end Cert.Agg.Ref

end
-- ==== Proof.RefChain.lean ====
/-
  The reference program, stage by stage, is the aggregation of Spec.lean.

  Its first layer multiplies the concatenated attribute and rating rows by the whole 512-column weight matrix: the sum
  over 512 columns splits into the two sums of the specification. Its third layer does the same with the second layer's
  output beside the user row. Its softmax takes the largest score once more against `⊥` before subtracting it, which
  changes nothing, and its sums start from a zero that adds nothing.
-/
import proofs.«416470_j90829968376432_3_alg».proof.Proof.Gen.ReferenceIdeal.Read
import proofs.«416470_j90829968376432_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«416470_j90829968376432_3_alg».proof.Proof.RefOps

noncomputable section

open scoped BigOperators

namespace Cert.Agg.Ref

open Idealize.ShloMosaic Idealize.ShloMosaic.ValueIdx Cert.ReferenceIdeal Cert.ReferenceIdeal.Read Cert.Agg

variable (a0 : (⟨S2048, .i32⟩ : BufTy).Contents (Elt Ideal)) (a1 a2 : (⟨S2048x200, .i32⟩ : BufTy).Contents (Elt Ideal))
  (a4 : (⟨S100000x256, .f32⟩ : BufTy).Contents (Elt Ideal)) (a5 : (⟨S50000x256, .f32⟩ : BufTy).Contents (Elt Ideal))
  (a6 : (⟨S5x256, .f32⟩ : BufTy).Contents (Elt Ideal)) (a7 : (⟨S256x512, .f32⟩ : BufTy).Contents (Elt Ideal))
  (a8 : (⟨S256, .f32⟩ : BufTy).Contents (Elt Ideal)) (a9 : (⟨S256x256, .f32⟩ : BufTy).Contents (Elt Ideal))
  (a10 : (⟨S256, .f32⟩ : BufTy).Contents (Elt Ideal)) (a11 : (⟨S256x512, .f32⟩ : BufTy).Contents (Elt Ideal))
  (a12 : (⟨S256, .f32⟩ : BufTy).Contents (Elt Ideal)) (a13 : (⟨S256x256, .f32⟩ : BufTy).Contents (Elt Ideal))
  (a14 : (⟨S256, .f32⟩ : BufTy).Contents (Elt Ideal)) (a15 : (⟨S1x256, .f32⟩ : BufTy).Contents (Elt Ideal))
  (a16 : (⟨S1, .f32⟩ : BufTy).Contents (Elt Ideal))

variable (Hr : Fin 2048 → Fin 200 → Fin 5)

/-- The attribute rows and the user rows, as the reference gathers them. -/
abbrev E : (⟨3, ![2048, 200, 256]⟩ : Shape).Idx → EReal := val_main_v6 (F := Ideal) a1 a5
abbrev U : (⟨2, ![2048, 256]⟩ : Shape).Idx → EReal := val_main_v20 (F := Ideal) a0 a4

private theorem lidx22_eq (b : Fin 2048) (l : Fin 200) (k : Fin 256) (q : Fin 512) :
    lidx_main_v22 (ix3 b l k) q = ix3 b l q :=
  funext fun a => Fin.ext (by match a with | ⟨0, _⟩ => rfl | ⟨1, _⟩ => rfl | ⟨2, _⟩ => rfl)
private theorem ridx22_eq (b : Fin 2048) (l : Fin 200) (k : Fin 256) (q : Fin 512) :
    ridx_main_v22 (ix3 b l k) q = ix2 k q :=
  funext fun a => Fin.ext (by match a with | ⟨0, _⟩ => rfl | ⟨1, _⟩ => rfl)
private theorem bias24_eq (b : Fin 2048) (l : Fin 200) (k : Fin 256) :
    idx_main_v23 (idx_main_v24 (ix3 b l k)) = ix1 k :=
  funext fun a => Fin.ext (by match a with | ⟨0, _⟩ => rfl)

/-- First layer. -/
theorem ref_x1 (hHr : ∀ b l, a2 (ix2 b l) = BitVec.ofNat 32 (Hr b l).val) (b : Fin 2048) (l : Fin 200) (k : Fin 256) :
    val_main_v26 (F := Ideal) a1 a2 a5 a6 a7 a8 (ix3 b l k) = Agg.x1 (E a1 a5) Hr a6 a7 a8 b l k := by
  rw [val_main_v26_apply, val_main_v25_apply, val_main_v22_apply, val_main_call0_v0_apply, val_main_call0_cst_apply,
    val_main_v24_apply, val_main_v23_apply, bias24_eq, Ideal.maximumf_def, Ideal.addf_def, Ideal.ofBits_def, Ideal.ofBits_zero_f32]
  have hsum : (∑ q : Fin 512, val_main_v21 (F := Ideal) a1 a2 a5 a6 (lidx_main_v22 (ix3 b l k) q) * a7 (ridx_main_v22 (ix3 b l k) q))
      = ∑ d : Fin 256, E a1 a5 (ix3 b l d) * a7 (ix2 k (lo256 d))
        + ∑ d : Fin 256, a6 (ix2 (Hr b l) d) * a7 (ix2 k (hi256 d)) := by
    rw [Cert.Agg.sum_cat]
    refine congrArg₂ (· + ·) ?_ ?_
    · refine Finset.sum_congr rfl fun d _ => ?_
      rw [lidx22_eq, ridx22_eq, cat21_lo]
    · refine Finset.sum_congr rfl fun d _ => ?_
      rw [lidx22_eq, ridx22_eq, cat21_hi, gatherR_apply a2 a6 Hr hHr]
  rw [hsum]
  unfold Cert.Agg.x1
  rfl

private theorem lidx27_eq (b : Fin 2048) (l : Fin 200) (k : Fin 256) (q : Fin 256) :
    lidx_main_v27 (ix3 b l k) q = ix3 b l q :=
  funext fun a => Fin.ext (by match a with | ⟨0, _⟩ => rfl | ⟨1, _⟩ => rfl | ⟨2, _⟩ => rfl)
private theorem ridx27_eq (b : Fin 2048) (l : Fin 200) (k : Fin 256) (q : Fin 256) :
    ridx_main_v27 (ix3 b l k) q = ix2 k q :=
  funext fun a => Fin.ext (by match a with | ⟨0, _⟩ => rfl | ⟨1, _⟩ => rfl)
private theorem bias29_eq (b : Fin 2048) (l : Fin 200) (k : Fin 256) :
    idx_main_v28 (idx_main_v29 (ix3 b l k)) = ix1 k :=
  funext fun a => Fin.ext (by match a with | ⟨0, _⟩ => rfl)

/-- Second layer. -/
theorem ref_o (hHr : ∀ b l, a2 (ix2 b l) = BitVec.ofNat 32 (Hr b l).val) (b : Fin 2048) (l : Fin 200) (k : Fin 256) :
    val_main_v31 (F := Ideal) a1 a2 a5 a6 a7 a8 a9 a10 (ix3 b l k) = Agg.o (E a1 a5) Hr a6 a7 a8 a9 a10 b l k := by
  rw [val_main_v31_apply, val_main_v30_apply, val_main_v27_apply, val_main_call1_v0_apply, val_main_call1_cst_apply,
    val_main_v29_apply, val_main_v28_apply, bias29_eq, Ideal.maximumf_def, Ideal.addf_def, Ideal.ofBits_def, Ideal.ofBits_zero_f32]
  have hsum : (∑ q : Fin 256, val_main_v26 (F := Ideal) a1 a2 a5 a6 a7 a8 (lidx_main_v27 (ix3 b l k) q) * a9 (ridx_main_v27 (ix3 b l k) q))
      = ∑ d : Fin 256, Agg.x1 (E a1 a5) Hr a6 a7 a8 b l d * a9 (ix2 k d) := by
    refine Finset.sum_congr rfl fun d _ => ?_
    rw [lidx27_eq, ridx27_eq, ref_x1 a1 a2 a5 a6 a7 a8 Hr hHr]
  rw [hsum]
  unfold Cert.Agg.o
  rfl

private theorem lidx35_eq (b : Fin 2048) (l : Fin 200) (k : Fin 256) (q : Fin 512) :
    lidx_main_v35 (ix3 b l k) q = ix3 b l q :=
  funext fun a => Fin.ext (by match a with | ⟨0, _⟩ => rfl | ⟨1, _⟩ => rfl | ⟨2, _⟩ => rfl)
private theorem ridx35_eq (b : Fin 2048) (l : Fin 200) (k : Fin 256) (q : Fin 512) :
    ridx_main_v35 (ix3 b l k) q = ix2 k q :=
  funext fun a => Fin.ext (by match a with | ⟨0, _⟩ => rfl | ⟨1, _⟩ => rfl)
private theorem bias37_eq (b : Fin 2048) (l : Fin 200) (k : Fin 256) :
    idx_main_v36 (idx_main_v37 (ix3 b l k)) = ix1 k :=
  funext fun a => Fin.ext (by match a with | ⟨0, _⟩ => rfl)

/-- Third layer. -/
theorem ref_h1 (hHr : ∀ b l, a2 (ix2 b l) = BitVec.ofNat 32 (Hr b l).val) (b : Fin 2048) (l : Fin 200) (k : Fin 256) :
    val_main_v39 (F := Ideal) a0 a1 a2 a4 a5 a6 a7 a8 a9 a10 a11 a12 (ix3 b l k)
      = Agg.h1 (E a1 a5) Hr (U a0 a4) a6 a7 a8 a9 a10 a11 a12 b l k := by
  rw [val_main_v39_apply, val_main_v38_apply, val_main_v35_apply, val_main_call2_v0_apply, val_main_call2_cst_apply,
    val_main_v37_apply, val_main_v36_apply, bias37_eq, Ideal.maximumf_def, Ideal.addf_def, Ideal.ofBits_def, Ideal.ofBits_zero_f32]
  have hsum : (∑ q : Fin 512, val_main_v34 (F := Ideal) a0 a1 a2 a4 a5 a6 a7 a8 a9 a10 (lidx_main_v35 (ix3 b l k) q) * a11 (ridx_main_v35 (ix3 b l k) q))
      = ∑ d : Fin 256, Agg.o (E a1 a5) Hr a6 a7 a8 a9 a10 b l d * a11 (ix2 k (lo256 d))
        + ∑ d : Fin 256, U a0 a4 (ix2 b d) * a11 (ix2 k (hi256 d)) := by
    rw [Cert.Agg.sum_cat]
    refine congrArg₂ (· + ·) ?_ ?_
    · refine Finset.sum_congr rfl fun d _ => ?_
      rw [lidx35_eq, ridx35_eq, cat34_lo, ref_o a1 a2 a5 a6 a7 a8 a9 a10 Hr hHr]
    · refine Finset.sum_congr rfl fun d _ => ?_
      rw [lidx35_eq, ridx35_eq, cat34_hi]
  rw [hsum]
  unfold Cert.Agg.h1
  rfl

private theorem lidx40_eq (b : Fin 2048) (l : Fin 200) (k : Fin 256) (q : Fin 256) :
    lidx_main_v40 (ix3 b l k) q = ix3 b l q :=
  funext fun a => Fin.ext (by match a with | ⟨0, _⟩ => rfl | ⟨1, _⟩ => rfl | ⟨2, _⟩ => rfl)
private theorem ridx40_eq (b : Fin 2048) (l : Fin 200) (k : Fin 256) (q : Fin 256) :
    ridx_main_v40 (ix3 b l k) q = ix2 k q :=
  funext fun a => Fin.ext (by match a with | ⟨0, _⟩ => rfl | ⟨1, _⟩ => rfl)
private theorem bias42_eq (b : Fin 2048) (l : Fin 200) (k : Fin 256) :
    idx_main_v41 (idx_main_v42 (ix3 b l k)) = ix1 k :=
  funext fun a => Fin.ext (by match a with | ⟨0, _⟩ => rfl)

/-- Fourth layer. -/
theorem ref_h2 (hHr : ∀ b l, a2 (ix2 b l) = BitVec.ofNat 32 (Hr b l).val) (b : Fin 2048) (l : Fin 200) (k : Fin 256) :
    val_main_v44 (F := Ideal) a0 a1 a2 a4 a5 a6 a7 a8 a9 a10 a11 a12 a13 a14 (ix3 b l k)
      = Agg.h2 (E a1 a5) Hr (U a0 a4) a6 a7 a8 a9 a10 a11 a12 a13 a14 b l k := by
  rw [val_main_v44_apply, val_main_v43_apply, val_main_v40_apply, val_main_call3_v0_apply, val_main_call3_cst_apply,
    val_main_v42_apply, val_main_v41_apply, bias42_eq, Ideal.maximumf_def, Ideal.addf_def, Ideal.ofBits_def, Ideal.ofBits_zero_f32]
  have hsum : (∑ q : Fin 256, val_main_v39 (F := Ideal) a0 a1 a2 a4 a5 a6 a7 a8 a9 a10 a11 a12 (lidx_main_v40 (ix3 b l k) q) * a13 (ridx_main_v40 (ix3 b l k) q))
      = ∑ d : Fin 256, Agg.h1 (E a1 a5) Hr (U a0 a4) a6 a7 a8 a9 a10 a11 a12 b l d * a13 (ix2 k d) := by
    refine Finset.sum_congr rfl fun d _ => ?_
    rw [lidx40_eq, ridx40_eq, ref_h1 a0 a1 a2 a4 a5 a6 a7 a8 a9 a10 a11 a12 Hr hHr]
  rw [hsum]
  unfold Cert.Agg.h2
  rfl

private theorem lidx45_eq (b : Fin 2048) (l : Fin 200) (q : Fin 256) :
    lidx_main_v45 (ix3 b l (0 : Fin 1)) q = ix3 b l q :=
  funext fun a => Fin.ext (by match a with | ⟨0, _⟩ => rfl | ⟨1, _⟩ => rfl | ⟨2, _⟩ => rfl)
private theorem ridx45_eq (b : Fin 2048) (l : Fin 200) (q : Fin 256) :
    ridx_main_v45 (ix3 b l (0 : Fin 1)) q = ix2 (0 : Fin 1) q :=
  funext fun a => Fin.ext (by match a with | ⟨0, _⟩ => rfl | ⟨1, _⟩ => rfl)
private theorem bias47_eq (b : Fin 2048) (l : Fin 200) :
    idx_main_v46 (idx_main_v47 (ix3 b l (0 : Fin 1))) = ix1 (0 : Fin 1) :=
  funext fun a => Fin.ext (by match a with | ⟨0, _⟩ => rfl)

/-- The score. -/
theorem ref_score (hHr : ∀ b l, a2 (ix2 b l) = BitVec.ofNat 32 (Hr b l).val) (b : Fin 2048) (l : Fin 200) :
    val_main_v48 (F := Ideal) a0 a1 a2 a4 a5 a6 a7 a8 a9 a10 a11 a12 a13 a14 a15 a16 (ix3 b l (0 : Fin 1))
      = Agg.score (E a1 a5) Hr (U a0 a4) a6 a7 a8 a9 a10 a11 a12 a13 a14 a15 a16 b l := by
  rw [val_main_v48_apply, val_main_v45_apply, val_main_v47_apply, val_main_v46_apply, bias47_eq, Ideal.addf_def]
  have hsum : (∑ q : Fin 256, val_main_v44 (F := Ideal) a0 a1 a2 a4 a5 a6 a7 a8 a9 a10 a11 a12 a13 a14 (lidx_main_v45 (ix3 b l (0 : Fin 1)) q) * a15 (ridx_main_v45 (ix3 b l (0 : Fin 1)) q))
      = ∑ d : Fin 256, Agg.h2 (E a1 a5) Hr (U a0 a4) a6 a7 a8 a9 a10 a11 a12 a13 a14 b l d * a15 (ix2 (0 : Fin 1) d) := by
    refine Finset.sum_congr rfl fun d _ => ?_
    rw [lidx45_eq, ridx45_eq, ref_h2 a0 a1 a2 a4 a5 a6 a7 a8 a9 a10 a11 a12 a13 a14 Hr hHr]
  rw [hsum]
  unfold Cert.Agg.score
  rfl

/-- The bit pattern of minus infinity is the least extended real. -/
private theorem ofBits_neg_inf_f32 : Ideal.ofBits .f32 0xFF800000#32 = ⊥ := by simp [Ideal.ofBits, Ideal.ieee]

/-- The largest score of a batch row, as the reference subtracts it. -/
theorem ref_smax (hHr : ∀ b l, a2 (ix2 b l) = BitVec.ofNat 32 (Hr b l).val) (b : Fin 2048) :
    val_main_v51 (F := Ideal) a0 a1 a2 a4 a5 a6 a7 a8 a9 a10 a11 a12 a13 a14 a15 a16 (ix2 b (0 : Fin 1))
      = Agg.smax (E a1 a5) Hr (U a0 a4) a6 a7 a8 a9 a10 a11 a12 a13 a14 a15 a16 b := by
  rw [val_main_v51_apply, val_main_v50_apply, val_main_cst_5_apply, Ideal.maximumf_def, Ideal.ofBits_def,
    ofBits_neg_inf_f32, Cert.Agg.max_bot_left, redmax_apply]
  unfold Cert.Agg.smax
  refine congrArg (fun f => Finset.fold max ⊥ f Finset.univ) (funext fun l => ?_)
  exact ref_score a0 a1 a2 a4 a5 a6 a7 a8 a9 a10 a11 a12 a13 a14 a15 a16 Hr hHr b l

private theorem idx5352_eq (b : Fin 2048) (l : Fin 200) :
    idx_main_v52 (idx_main_v53 (ix3 b l (0 : Fin 1))) = ix2 b (0 : Fin 1) :=
  funext fun a => Fin.ext (by match a with | ⟨0, _⟩ => rfl | ⟨1, _⟩ => rfl)
private theorem idx5857_eq (b : Fin 2048) (l : Fin 200) :
    idx_main_v57 (idx_main_v58 (ix3 b l (0 : Fin 1))) = ix2 b (0 : Fin 1) :=
  funext fun a => Fin.ext (by match a with | ⟨0, _⟩ => rfl | ⟨1, _⟩ => rfl)
private theorem idx56_eq (b : Fin 2048) (l : Fin 200) :
    idx_main_v56 (ix2 b (0 : Fin 1)) l = ix3 b l (0 : Fin 1) :=
  funext fun a => Fin.ext (by match a with | ⟨0, _⟩ => rfl | ⟨1, _⟩ => rfl | ⟨2, _⟩ => rfl)
private theorem idx60_eq (b : Fin 2048) (l : Fin 200) (k : Fin 256) :
    idx_main_v60 (ix3 b l k) = ix3 b l (0 : Fin 1) :=
  funext fun a => Fin.ext (by match a with | ⟨0, _⟩ => rfl | ⟨1, _⟩ => rfl | ⟨2, _⟩ => rfl)
private theorem idx62_eq (b : Fin 2048) (k : Fin 256) (l : Fin 200) :
    idx_main_v62 (ix2 b k) l = ix3 b l k :=
  funext fun a => Fin.ext (by match a with | ⟨0, _⟩ => rfl | ⟨1, _⟩ => rfl | ⟨2, _⟩ => rfl)

/-- The exponential of a score less the largest score of its batch row. -/
private theorem ref_expd (hHr : ∀ b l, a2 (ix2 b l) = BitVec.ofNat 32 (Hr b l).val) (b : Fin 2048) (l : Fin 200) :
    val_main_v55 (F := Ideal) a0 a1 a2 a4 a5 a6 a7 a8 a9 a10 a11 a12 a13 a14 a15 a16 (ix3 b l (0 : Fin 1))
      = Ideal.exp (Agg.score (E a1 a5) Hr (U a0 a4) a6 a7 a8 a9 a10 a11 a12 a13 a14 a15 a16 b l - Agg.smax (E a1 a5) Hr (U a0 a4) a6 a7 a8 a9 a10 a11 a12 a13 a14 a15 a16 b) := by
  rw [val_main_v55_apply, Ideal.hostUnary_exp_def, val_main_v54_apply, Ideal.subf_def, val_main_v53_apply,
    val_main_v52_apply, idx5352_eq, ref_smax a0 a1 a2 a4 a5 a6 a7 a8 a9 a10 a11 a12 a13 a14 a15 a16 Hr hHr, ref_score a0 a1 a2 a4 a5 a6 a7 a8 a9 a10 a11 a12 a13 a14 a15 a16 Hr hHr]

/-- The softmax's denominator: the sum starts from a zero that adds nothing. -/
private theorem ref_den (hHr : ∀ b l, a2 (ix2 b l) = BitVec.ofNat 32 (Hr b l).val) (b : Fin 2048) :
    val_main_v56 (F := Ideal) a0 a1 a2 a4 a5 a6 a7 a8 a9 a10 a11 a12 a13 a14 a15 a16 (ix2 b (0 : Fin 1))
      = ∑ l' : Fin 200, Ideal.exp (Agg.score (E a1 a5) Hr (U a0 a4) a6 a7 a8 a9 a10 a11 a12 a13 a14 a15 a16 b l' - Agg.smax (E a1 a5) Hr (U a0 a4) a6 a7 a8 a9 a10 a11 a12 a13 a14 a15 a16 b) := by
  rw [val_main_v56_apply, val_main_cst_6_apply, Ideal.ofBits_def, Ideal.ofBits_zero_f32, zero_add]
  refine Finset.sum_congr rfl fun l _ => ?_
  rw [idx56_eq, ref_expd a0 a1 a2 a4 a5 a6 a7 a8 a9 a10 a11 a12 a13 a14 a15 a16 Hr hHr]

/-- The softmax weight of position `l`. -/
private theorem ref_weight (hHr : ∀ b l, a2 (ix2 b l) = BitVec.ofNat 32 (Hr b l).val) (b : Fin 2048) (l : Fin 200) :
    val_main_v59 (F := Ideal) a0 a1 a2 a4 a5 a6 a7 a8 a9 a10 a11 a12 a13 a14 a15 a16 (ix3 b l (0 : Fin 1))
      = Ideal.div (Ideal.exp (Agg.score (E a1 a5) Hr (U a0 a4) a6 a7 a8 a9 a10 a11 a12 a13 a14 a15 a16 b l - Agg.smax (E a1 a5) Hr (U a0 a4) a6 a7 a8 a9 a10 a11 a12 a13 a14 a15 a16 b))
          (∑ l' : Fin 200, Ideal.exp (Agg.score (E a1 a5) Hr (U a0 a4) a6 a7 a8 a9 a10 a11 a12 a13 a14 a15 a16 b l' - Agg.smax (E a1 a5) Hr (U a0 a4) a6 a7 a8 a9 a10 a11 a12 a13 a14 a15 a16 b)) := by
  rw [val_main_v59_apply, Ideal.hostDivf_def, ref_expd a0 a1 a2 a4 a5 a6 a7 a8 a9 a10 a11 a12 a13 a14 a15 a16 Hr hHr, val_main_v58_apply, val_main_v57_apply, idx5857_eq,
    ref_den a0 a1 a2 a4 a5 a6 a7 a8 a9 a10 a11 a12 a13 a14 a15 a16 Hr hHr]

/-- The result. -/
theorem ref_out (hHr : ∀ b l, a2 (ix2 b l) = BitVec.ofNat 32 (Hr b l).val) (b : Fin 2048) (k : Fin 256) :
    val_main_v62 (F := Ideal) a0 a1 a2 a4 a5 a6 a7 a8 a9 a10 a11 a12 a13 a14 a15 a16 (ix2 b k)
      = Agg.out (E a1 a5) Hr (U a0 a4) a6 a7 a8 a9 a10 a11 a12 a13 a14 a15 a16 b k := by
  rw [val_main_v62_apply, val_main_cst_7_apply, Ideal.ofBits_def, Ideal.ofBits_zero_f32, zero_add]
  unfold Cert.Agg.out
  refine Finset.sum_congr rfl fun l _ => ?_
  rw [idx62_eq, val_main_v61_apply, Ideal.mulf_def, ref_o a1 a2 a5 a6 a7 a8 a9 a10 Hr hHr, val_main_v60_apply, idx60_eq,
    ref_weight a0 a1 a2 a4 a5 a6 a7 a8 a9 a10 a11 a12 a13 a14 a15 a16 Hr hHr]

end Cert.Agg.Ref

end
-- ==== Proof.lean ====
/-
  The certificate: the kernel and its jnp reference compute the same aggregation on the extended reals, for every input
  whose float entries are finite and whose rating indices are among 0 … 4.

  The three programs run to the end whatever the input (the frames). The idealized kernel is the kernel's own text read
  on the extended reals (no rewrite was applied: `preserves` holds trivially). For the value: the kernel's result array
  ends at `out` of Spec.lean over the gathered attribute and user rows (KernelValue.lean), the reference's result is
  the same `out` over its own gathers (RefChain.lean), and the two programs gather by the same operations on the same
  arguments. The rating index enters the kernel through an indicator row over eight table rows and the reference
  through a clamped gather over five: they agree exactly when the index is one of 0 … 4, which is what the precondition's
  last two conjuncts say (PreDecode.lean); the finiteness of the float inputs is not used.
-/
import proofs.«416470_j90829968376432_3_alg».proof.Defs
import proofs.«416470_j90829968376432_3_alg».proof.Proof.Gen.Kernel
import proofs.«416470_j90829968376432_3_alg».proof.Proof.Gen.Kernel.Skeleton
import proofs.«416470_j90829968376432_3_alg».proof.Proof.Gen.Kernel.Launch
import proofs.«416470_j90829968376432_3_alg».proof.Proof.Gen.Kernel.Points
import proofs.«416470_j90829968376432_3_alg».proof.Proof.Gen.Kernel.Frame
import proofs.«416470_j90829968376432_3_alg».proof.Proof.Gen.KernelIdeal
import proofs.«416470_j90829968376432_3_alg».proof.Proof.Gen.KernelIdeal.Skeleton
import proofs.«416470_j90829968376432_3_alg».proof.Proof.Gen.KernelIdeal.Launch
import proofs.«416470_j90829968376432_3_alg».proof.Proof.Gen.KernelIdeal.Points
import proofs.«416470_j90829968376432_3_alg».proof.Proof.Gen.KernelIdeal.Frame
import proofs.«416470_j90829968376432_3_alg».proof.Proof.Gen.ReferenceIdeal
import proofs.«416470_j90829968376432_3_alg».proof.Proof.Gen.Pre_finite_inputs
import proofs.«416470_j90829968376432_3_alg».proof.Proof.Gen.KernelIdeal.Value
import proofs.«416470_j90829968376432_3_alg».proof.Proof.Gen.ReferenceIdeal.Run
import proofs.«416470_j90829968376432_3_alg».proof.Proof.Gen.ReferenceIdeal.Read
import proofs.«416470_j90829968376432_3_alg».proof.Proof.Spec
import proofs.«416470_j90829968376432_3_alg».proof.Proof.PreDecode
import proofs.«416470_j90829968376432_3_alg».proof.Proof.KernelValue
import proofs.«416470_j90829968376432_3_alg».proof.Proof.RefChain
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs gather the attribute rows by the same operations. -/
theorem gatherE_eq (x1 : IVec Cert.KernelIdeal.S2048x200 32) (x5 : FVec Ideal Cert.KernelIdeal.S50000x256 .f32)
    [Cert.KernelIdeal.Facts] [Cert.ReferenceIdeal.Facts] :
    Cert.Agg.Ref.E x1 x5 = Cert.Agg.Kernel.gatherE x1 x5 := rfl

/-- … and the user rows. -/
theorem gatherU_eq (x0 : IVec Cert.KernelIdeal.S2048 32) (x4 : FVec Ideal Cert.KernelIdeal.S100000x256 .f32)
    [Cert.KernelIdeal.Facts] [Cert.ReferenceIdeal.Facts] :
    Cert.Agg.Ref.U x0 x4 = Cert.Agg.Kernel.gatherU x0 x4 := rfl

/-- A 32-bit word is the word of its value. -/
theorem word_eq (w : BitVec 32) : w = BitVec.ofNat 32 w.toNat :=
  BitVec.eq_of_toNat_eq (by rw [BitVec.toNat_ofNat, Nat.mod_eq_of_lt w.isLt])

theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both runs end with the result array at `out` of the arguments. -/
theorem algebraic [Cert.KernelIdeal.Facts] [Cert.ReferenceIdeal.Facts] [Cert.Pre_finite_inputs.Facts] :
    Cert.algebraic_KernelIdeal_ReferenceIdeal := by
  intro m ρ m' ρ' hpre hagree
  -- the rating index of each record, as a number below 5
  have hlt : ∀ (c : Dev Cert.KernelIdeal.nD) (b : Fin 2048) (l : Fin 200),
      ((m ((c.tc : Thread Cert.KernelIdeal.nD Cert.KernelIdeal.τ).loc Cert.KernelIdeal.main_arg2)
        : IVec Cert.KernelIdeal.S2048x200 32) (ix2 b l)).toNat < 5 :=
    fun c b l => Cert.Agg.Pre.hist_lt (F := Ideal) _ _ _ _ _ _ _ _ _ _ _ _ _ _ _ _ _ (hpre c) (ix2 b l)
  let Hr : Dev Cert.KernelIdeal.nD → Fin 2048 → Fin 200 → Fin 5 := fun c b l => ⟨_, hlt c b l⟩
  have hHr : ∀ c b l, (m ((c.tc : Thread Cert.KernelIdeal.nD Cert.KernelIdeal.τ).loc Cert.KernelIdeal.main_arg2)
      : IVec Cert.KernelIdeal.S2048x200 32) (ix2 b l) = BitVec.ofNat 32 (Hr c b l).val := fun c b l => word_eq _
  refine ⟨fun c => Cert.Agg.Kernel.GK m Hr c, Cert.Agg.Kernel.run m ρ Hr hHr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq]
  obtain ⟨g0, g1, g2, g3, g4, g5, g6, g7, g8, g9, g10, g11, g12, g13, g14, g15, g16⟩ := hagree c
  rw [g0, g1, g2, g4, g5, g6, g7, g8, g9, g10, g11, g12, g13, g14, g15, g16]
  funext i
  obtain ⟨b, k, rfl⟩ : ∃ (b : Fin 2048) (k : Fin 256), i = ix2 b k := ⟨i 0, i 1, eq_ix2 i⟩
  refine (Cert.Agg.Ref.ref_out _ _ _ _ _ _ _ _ _ _ _ _ _ _ _ _ (Hr c) (hHr c) b k).trans ?_
  rw [gatherE_eq, gatherU_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
